-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S100000 : Shape := ⟨1, ![100000]⟩
abbrev S100000x35 : Shape := ⟨2, ![100000, 35]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel

variable [Facts]

def fn {F : FTy → Type} [FloatOps F] (main_arg0 : FVec F S100000x64 .f32) (main_arg1 : IVec S100000 32) (main_arg2 : IVec S100000x35 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  main_v3
-- ==== Kernel.lean ====
abbrev S100000x64 : Shape := ⟨2, ![100000, 64]⟩
abbrev S100000 : Shape := ⟨1, ![100000]⟩
abbrev S100000x35 : Shape := ⟨2, ![100000, 35]⟩
abbrev S_ : Shape := ⟨0, ![]⟩
abbrev S100000x35x1 : Shape := ⟨3, ![100000, 35, 1]⟩
abbrev S100000x35x64 : Shape := ⟨3, ![100000, 35, 64]⟩
abbrev S100000x1 : Shape := ⟨2, ![100000, 1]⟩
abbrev S1x1 : Shape := ⟨2, ![1, 1]⟩
abbrev S400x64 : Shape := ⟨2, ![400, 64]⟩
abbrev S400x35x64 : Shape := ⟨3, ![400, 35, 64]⟩
abbrev S400x35 : Shape := ⟨2, ![400, 35]⟩
abbrev S400x1 : Shape := ⟨2, ![400, 1]⟩
abbrev S400x1x64 : Shape := ⟨3, ![400, 1, 64]⟩
abbrev S400 : Shape := ⟨1, ![400]⟩
abbrev S1 : Shape := ⟨1, ![1]⟩

abbrev nBuf : Space → Nat
  | .hbm => 46
  | .vmem => 10
  | .smem => 0
  | _ => 0

abbrev bufTy : (tb : Table) → Fin (tcTables nBuf tb) → BufTy
  | .hbm, ⟨0, _⟩ => ⟨S100000x64, .f32⟩
  | .hbm, ⟨1, _⟩ => ⟨S100000, .i32⟩
  | .hbm, ⟨2, _⟩ => ⟨S100000x35, .i32⟩
  | .hbm, ⟨3, _⟩ => ⟨S_, .i32⟩
  | .hbm, ⟨4, _⟩ => ⟨S100000x35, .i32⟩
  | .hbm, ⟨5, _⟩ => ⟨S100000x35, .i1⟩
  | .hbm, ⟨6, _⟩ => ⟨S_, .i32⟩
  | .hbm, ⟨7, _⟩ => ⟨S100000x35, .i32⟩
  | .hbm, ⟨8, _⟩ => ⟨S100000x35, .i32⟩
  | .hbm, ⟨9, _⟩ => ⟨S100000x35, .i32⟩
  | .hbm, ⟨10, _⟩ => ⟨S100000x35x1, .i32⟩
  | .hbm, ⟨11, _⟩ => ⟨S100000x35, .i32⟩
  | .hbm, ⟨12, _⟩ => ⟨S_, .i32⟩
  | .hbm, ⟨13, _⟩ => ⟨S100000x35, .i32⟩
  | .hbm, ⟨14, _⟩ => ⟨S100000x35, .i1⟩
  | .hbm, ⟨15, _⟩ => ⟨S_, .i32⟩
  | .hbm, ⟨16, _⟩ => ⟨S100000x35, .i32⟩
  | .hbm, ⟨17, _⟩ => ⟨S100000x35, .i32⟩
  | .hbm, ⟨18, _⟩ => ⟨S100000x35, .i32⟩
  | .hbm, ⟨19, _⟩ => ⟨S100000x35x1, .i32⟩
  | .hbm, ⟨20, _⟩ => ⟨S100000x35x64, .f32⟩
  | .hbm, ⟨21, _⟩ => ⟨S100000x1, .i32⟩
  | .hbm, ⟨22, _⟩ => ⟨S100000x35, .i32⟩
  | .hbm, ⟨23, _⟩ => ⟨S100000x35, .i1⟩
  | .hbm, ⟨24, _⟩ => ⟨S100000x35, .i32⟩
  | .hbm, ⟨25, _⟩ => ⟨S_, .i32⟩
  | .hbm, ⟨26, _⟩ => ⟨S100000, .i32⟩
  | .hbm, ⟨27, _⟩ => ⟨S_, .i32⟩
  | .hbm, ⟨28, _⟩ => ⟨S100000, .i32⟩
  | .hbm, ⟨29, _⟩ => ⟨S100000, .i1⟩
  | .hbm, ⟨30, _⟩ => ⟨S_, .i32⟩
  | .hbm, ⟨31, _⟩ => ⟨S100000, .i32⟩
  | .hbm, ⟨32, _⟩ => ⟨S100000, .i1⟩
  | .hbm, ⟨33, _⟩ => ⟨S100000, .i1⟩
  | .hbm, ⟨34, _⟩ => ⟨S100000x35, .f32⟩
  | .hbm, ⟨35, _⟩ => ⟨S100000, .f32⟩
  | .hbm, ⟨36, _⟩ => ⟨S100000x1, .f32⟩
  | .hbm, ⟨37, _⟩ => ⟨S1x1, .f32⟩
  | .hbm, ⟨38, _⟩ => ⟨S1x1, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .local _ .vmem, ⟨0, _⟩ => ⟨S400x64, .f32⟩
  | .local _ .vmem, ⟨1, _⟩ => ⟨S400x64, .f32⟩
  | .local _ .vmem, ⟨2, _⟩ => ⟨S400x35x64, .f32⟩
  | .local _ .vmem, ⟨3, _⟩ => ⟨S400x35x64, .f32⟩
  | .local _ .vmem, ⟨4, _⟩ => ⟨S400x35, .f32⟩
  | .local _ .vmem, ⟨5, _⟩ => ⟨S400x35, .f32⟩
  | .local _ .vmem, ⟨6, _⟩ => ⟨S400x1, .f32⟩
  | .local _ .vmem, ⟨7, _⟩ => ⟨S400x1, .f32⟩
  | .local _ .vmem, ⟨8, _⟩ => ⟨S1x1, .f32⟩
  | .local _ .vmem, ⟨9, _⟩ => ⟨S1x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_3 : Ref sig .tc := ⟨.hbm, 25, rfl⟩
abbrev main_v18 : Ref sig .tc := ⟨.hbm, 26, rfl⟩
abbrev main_c_4 : Ref sig .tc := ⟨.hbm, 27, rfl⟩
abbrev main_v19 : Ref sig .tc := ⟨.hbm, 28, rfl⟩
abbrev main_v20 : Ref sig .tc := ⟨.hbm, 29, rfl⟩
abbrev main_c_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27_0 : Ref sig .tc := ⟨.hbm, 37, rfl⟩
abbrev main_v27_1 : Ref sig .tc := ⟨.hbm, 38, rfl⟩
abbrev main_v28 : Ref sig .tc := ⟨.hbm, 39, rfl⟩
abbrev main_cst : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S400x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x35x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S400x35 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  bcast_S_S100000x35 : S_.BroadcastsInDim S100000x35 (![] : Fin 0 → Fin S100000x35.rank)
  bcast_S100000x35_S100000x35x1_0_1 : S100000x35.BroadcastsInDim S100000x35x1 (![0, 1] : Fin 2 → Fin S100000x35x1.rank)
  bcast_S100000_S100000x1_0 : S100000.BroadcastsInDim S100000x1 (![0] : Fin 1 → Fin S100000x1.rank)
  bcast_S100000x1_S100000x35_0_1 : S100000x1.BroadcastsInDim S100000x35 (![0, 1] : Fin 2 → Fin S100000x35.rank)
  natLt_1_32 : 1 < 32
  reducesTo_S100000x35_S100000_d1 : S100000x35.ReducesTo [1] S100000
  h_S_ : 0 < S_.numel
  bcast_S_S100000 : S_.BroadcastsInDim S100000 (![] : Fin 0 → Fin S100000.rank)
  inb_S1x1_S1x1_0_0 : ∀ a, (![0, 0] : Fin 2 → Nat) a + S1x1.size a ≤ S1x1.size a
  h_S1x1 : 0 < S1x1.numel
  inb_S400x64_S400x64_0_0 : ∀ a, (![0, 0] : Fin 2 → Nat) a + S400x64.size a ≤ S400x64.size a
  h_S400x64 : 0 < S400x64.numel
  inb_S400x35x64_S400x35x64_0_0_0 : ∀ a, (![0, 0, 0] : Fin 3 → Nat) a + S400x35x64.size a ≤ S400x35x64.size a
  h_S400x35x64 : 0 < S400x35x64.numel
  shapeCasts_S400x35x64_S400x35x64 : S400x35x64.ShapeCasts S400x35x64
  inb_S400x35_S400x35_0_0 : ∀ a, (![0, 0] : Fin 2 → Nat) a + S400x35.size a ≤ S400x35.size a
  h_S400x35 : 0 < S400x35.numel
  shapeCasts_S400x35_S400x35 : S400x35.ShapeCasts S400x35
  inb_S400x1_S400x1_0_0 : ∀ a, (![0, 0] : Fin 2 → Nat) a + S400x1.size a ≤ S400x1.size a
  h_S400x1 : 0 < S400x1.numel
  shapeCasts_S400x1_S400x1 : S400x1.ShapeCasts S400x1
  shapeCasts_S400x64_S400x1x64 : S400x64.ShapeCasts S400x1x64
  broadcasts_S400x1x64_S400x35x64 : S400x1x64.Broadcasts S400x35x64
  reduces_S400x35x64_S400x35 : S400x35x64.Reduces [2] S400x35
  reduces_S400x35_S400 : S400x35.Reduces [1] S400
  shapeCasts_S400_S400x1 : S400.ShapeCasts S400x1
  broadcasts_S400x1_S400x35 : S400x1.Broadcasts S400x35
  reduces_S400x1_S1 : S400x1.Reduces [0] S1
  shapeCasts_S1_S1x1 : S1.ShapeCasts S1x1
  shapeCasts_S1x1_S1x1 : S1x1.ShapeCasts S1x1
  shapeCasts_S1x1_S_ : S1x1.ShapeCasts S_
  gather_S100000_S100000x35x1_S100000x35_n_0_n_n_0_2_1_wf : GatherDims.WF S100000 S100000x35x1 S100000x35 [] [0] [] [0] [] 2 ![1]
  gather_S100000x64_S100000x35x1_S100000x35x64_2_0_n_n_0_2_164_wf : GatherDims.WF S100000x64 S100000x35x1 S100000x35x64 [2] [0] [] [0] [] 2 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x64.size a ≤ S100000x64.size a
  hwx0_0 : ∀ i : grid0.Coords, EltTy.bits .f32 = 32 ∨ (Rect.block (s := S100000x64) S400x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x35x64.size a ≤ S100000x35x64.size a
  hwx0_1 : ∀ i : grid0.Coords, EltTy.bits .f32 = 32 ∨ (Rect.block (s := S100000x35x64) S400x35x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x35.size a ≤ S100000x35.size a
  hwx0_2 : ∀ i : grid0.Coords, EltTy.bits .f32 = 32 ∨ (Rect.block (s := S100000x35) S400x35.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x1.size a ≤ S100000x1.size a
  hwx0_3 : ∀ i : grid0.Coords, EltTy.bits .f32 = 32 ∨ (Rect.block (s := S100000x1) S400x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)

variable [Facts₀]

def gather_S100000_S100000x35x1_S100000x35_n_0_n_n_0_2_1 : GatherDims S100000 S100000x35x1 S100000x35 where
  offsetDims := []
  collapsedSliceDims := [0]
  operandBatchingDims := []
  startIndicesBatchingDims := []
  startIndexMap := [0]
  indexVectorDim := 2
  sliceSizes := ![1]
  wf := gather_S100000_S100000x35x1_S100000x35_n_0_n_n_0_2_1_wf
def gather_S100000x64_S100000x35x1_S100000x35x64_2_0_n_n_0_2_164 : GatherDims S100000x64 S100000x35x1 S100000x35x64 where
  offsetDims := [2]
  collapsedSliceDims := [0]
  operandBatchingDims := []
  startIndicesBatchingDims := []
  startIndexMap := [0]
  indexVectorDim := 2
  sliceSizes := ![1, 64]
  wf := gather_S100000x64_S100000x35x1_S100000x35x64_2_0_n_n_0_2_164_wf

abbrev win0_0 : Pipeline.Window sig grid0 :=
  Pipeline.Window.ofSpec (Memref.whole main_arg0) S400x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S400x35x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S400x35.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v26) S400x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v27_0) S1x1.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27_1) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x64 : Shape := ⟨2, ![100000, 64]⟩
abbrev S100000 : Shape := ⟨1, ![100000]⟩
abbrev S100000x35 : Shape := ⟨2, ![100000, 35]⟩
abbrev S_ : Shape := ⟨0, ![]⟩
abbrev S100000x35x1 : Shape := ⟨3, ![100000, 35, 1]⟩
abbrev S100000x35x64 : Shape := ⟨3, ![100000, 35, 64]⟩
abbrev S100000x1 : Shape := ⟨2, ![100000, 1]⟩
abbrev S100000x1x64 : Shape := ⟨3, ![100000, 1, 64]⟩

abbrev nBuf : Space → Nat
  | .hbm => 77
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S100000, .i32⟩
  | .hbm, ⟨2, _⟩ => ⟨S100000x35, .i32⟩
  | .hbm, ⟨3, _⟩ => ⟨S_, .i32⟩
  | .hbm, ⟨4, _⟩ => ⟨S100000x35, .i32⟩
  | .hbm, ⟨5, _⟩ => ⟨S100000x35, .i1⟩
  | .hbm, ⟨6, _⟩ => ⟨S_, .i32⟩
  | .hbm, ⟨7, _⟩ => ⟨S100000x35, .i32⟩
  | .hbm, ⟨8, _⟩ => ⟨S100000x35, .i32⟩
  | .hbm, ⟨9, _⟩ => ⟨S100000x35, .i32⟩
  | .hbm, ⟨10, _⟩ => ⟨S100000x35x1, .i32⟩
  | .hbm, ⟨11, _⟩ => ⟨S100000x35, .i32⟩
  | .hbm, ⟨12, _⟩ => ⟨S_, .i32⟩
  | .hbm, ⟨13, _⟩ => ⟨S100000x35, .i32⟩
  | .hbm, ⟨14, _⟩ => ⟨S100000x35, .i1⟩
  | .hbm, ⟨15, _⟩ => ⟨S_, .i32⟩
  | .hbm, ⟨16, _⟩ => ⟨S100000x35, .i32⟩
  | .hbm, ⟨17, _⟩ => ⟨S100000x35, .i32⟩
  | .hbm, ⟨18, _⟩ => ⟨S100000x35, .i32⟩
  | .hbm, ⟨19, _⟩ => ⟨S100000x35x1, .i32⟩
  | .hbm, ⟨20, _⟩ => ⟨S100000x35x64, .f32⟩
  | .hbm, ⟨21, _⟩ => ⟨S100000x1, .i32⟩
  | .hbm, ⟨22, _⟩ => ⟨S100000x35, .i32⟩
  | .hbm, ⟨23, _⟩ => ⟨S100000x35, .i1⟩
  | .hbm, ⟨24, _⟩ => ⟨S100000x35, .i32⟩
  | .hbm, ⟨25, _⟩ => ⟨S_, .i32⟩
  | .hbm, ⟨26, _⟩ => ⟨S100000, .i32⟩
  | .hbm, ⟨27, _⟩ => ⟨S_, .i32⟩
  | .hbm, ⟨28, _⟩ => ⟨S100000, .i32⟩
  | .hbm, ⟨29, _⟩ => ⟨S100000, .i1⟩
  | .hbm, ⟨30, _⟩ => ⟨S_, .i32⟩
  | .hbm, ⟨31, _⟩ => ⟨S100000, .i32⟩
  | .hbm, ⟨32, _⟩ => ⟨S100000, .i1⟩
  | .hbm, ⟨33, _⟩ => ⟨S100000, .i1⟩
  | .hbm, ⟨34, _⟩ => ⟨S100000x1x64, .f32⟩
  | .hbm, ⟨35, _⟩ => ⟨S100000x35x64, .f32⟩
  | .hbm, ⟨36, _⟩ => ⟨S100000x35x64, .f32⟩
  | .hbm, ⟨37, _⟩ => ⟨S100000x35x64, .f32⟩
  | .hbm, ⟨38, _⟩ => ⟨S_, .f32⟩
  | .hbm, ⟨39, _⟩ => ⟨S100000x35, .f32⟩
  | .hbm, ⟨40, _⟩ => ⟨S_, .f32⟩
  | .hbm, ⟨41, _⟩ => ⟨S100000x35, .f32⟩
  | .hbm, ⟨42, _⟩ => ⟨S100000x35, .f32⟩
  | .hbm, ⟨43, _⟩ => ⟨S100000x35, .f32⟩
  | .hbm, ⟨44, _⟩ => ⟨S100000x35, .f32⟩
  | .hbm, ⟨45, _⟩ => ⟨S_, .f32⟩
  | .hbm, ⟨46, _⟩ => ⟨S100000, .f32⟩
  | .hbm, ⟨47, _⟩ => ⟨S100000x1, .f32⟩
  | .hbm, ⟨48, _⟩ => ⟨S100000x35, .f32⟩
  | .hbm, ⟨49, _⟩ => ⟨S100000x35, .f32⟩
  | .hbm, ⟨50, _⟩ => ⟨S_, .f32⟩
  | .hbm, ⟨51, _⟩ => ⟨S100000x35, .f32⟩
  | .hbm, ⟨52, _⟩ => ⟨S100000x35, .f32⟩
  | .hbm, ⟨53, _⟩ => ⟨S100000x35, .f32⟩
  | .hbm, ⟨54, _⟩ => ⟨S100000x35, .f32⟩
  | .hbm, ⟨55, _⟩ => ⟨S100000x35, .f32⟩
  | .hbm, ⟨56, _⟩ => ⟨S_, .f32⟩
  | .hbm, ⟨57, _⟩ => ⟨S100000, .f32⟩
  | .hbm, ⟨58, _⟩ => ⟨S_, .f32⟩
  | .hbm, ⟨59, _⟩ => ⟨S100000, .f32⟩
  | .hbm, ⟨60, _⟩ => ⟨S100000, .f32⟩
  | .hbm, ⟨61, _⟩ => ⟨S_, .f32⟩
  | .hbm, ⟨62, _⟩ => ⟨S100000, .f32⟩
  | .hbm, ⟨63, _⟩ => ⟨S100000, .f32⟩
  | .hbm, ⟨64, _⟩ => ⟨S100000, .f32⟩
  | .hbm, ⟨65, _⟩ => ⟨S100000, .f32⟩
  | .hbm, ⟨66, _⟩ => ⟨S100000, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S100000, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_3 : Ref sig .tc := ⟨.hbm, 25, rfl⟩
abbrev main_v18 : Ref sig .tc := ⟨.hbm, 26, rfl⟩
abbrev main_c_4 : Ref sig .tc := ⟨.hbm, 27, rfl⟩
abbrev main_v19 : Ref sig .tc := ⟨.hbm, 28, rfl⟩
abbrev main_v20 : Ref sig .tc := ⟨.hbm, 29, rfl⟩
abbrev main_c_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_8 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_9 : Ref sig .tc := ⟨.hbm, 56, rfl⟩
abbrev main_v42 : Ref sig .tc := ⟨.hbm, 57, rfl⟩
abbrev main_cst_10 : Ref sig .tc := ⟨.hbm, 58, rfl⟩
abbrev main_v43 : Ref sig .tc := ⟨.hbm, 59, rfl⟩
abbrev main_v44 : Ref sig .tc := ⟨.hbm, 60, rfl⟩
abbrev main_cst_11 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_12 : Ref sig .tc := ⟨.hbm, 67, rfl⟩
abbrev main_v50 : Ref sig .tc := ⟨.hbm, 68, rfl⟩
abbrev main_cst_13 : Ref sig .tc := ⟨.hbm, 69, rfl⟩
abbrev main_v51 : Ref sig .tc := ⟨.hbm, 70, rfl⟩
abbrev main_v52 : Ref sig .tc := ⟨.hbm, 71, rfl⟩
abbrev main_cst_14 : Ref sig .tc := ⟨.hbm, 72, rfl⟩
abbrev main_v53 : Ref sig .tc := ⟨.hbm, 73, rfl⟩
abbrev main_v54 : Ref sig .tc := ⟨.hbm, 74, rfl⟩
abbrev main_cst_15 : Ref sig .tc := ⟨.hbm, 75, rfl⟩
abbrev main_v55 : Ref sig .tc := ⟨.hbm, 76, rfl⟩

abbrev nD : Nat := 1
abbrev τ : Topo := Topo.v7x

variable {F : FTy → Type} [FloatOps F]

class Facts₀ : Prop where
  bcast_S_S100000x35 : S_.BroadcastsInDim S100000x35 (![] : Fin 0 → Fin S100000x35.rank)
  bcast_S100000x35_S100000x35x1_0_1 : S100000x35.BroadcastsInDim S100000x35x1 (![0, 1] : Fin 2 → Fin S100000x35x1.rank)
  bcast_S100000_S100000x1_0 : S100000.BroadcastsInDim S100000x1 (![0] : Fin 1 → Fin S100000x1.rank)
  bcast_S100000x1_S100000x35_0_1 : S100000x1.BroadcastsInDim S100000x35 (![0, 1] : Fin 2 → Fin S100000x35.rank)
  natLt_1_32 : 1 < 32
  reducesTo_S100000x35_S100000_d1 : S100000x35.ReducesTo [1] S100000
  h_S_ : 0 < S_.numel
  bcast_S_S100000 : S_.BroadcastsInDim S100000 (![] : Fin 0 → Fin S100000.rank)
  bcast_S100000x64_S100000x1x64_0_2 : S100000x64.BroadcastsInDim S100000x1x64 (![0, 2] : Fin 2 → Fin S100000x1x64.rank)
  bcast_S100000x1x64_S100000x35x64_0_1_2 : S100000x1x64.BroadcastsInDim S100000x35x64 (![0, 1, 2] : Fin 3 → Fin S100000x35x64.rank)
  reducesTo_S100000x35x64_S100000x35_d2 : S100000x35x64.ReducesTo [2] S100000x35
  reducesTo_S100000_S_d0 : S100000.ReducesTo [0] S_
  gather_S100000_S100000x35x1_S100000x35_n_0_n_n_0_2_1_wf : GatherDims.WF S100000 S100000x35x1 S100000x35 [] [0] [] [0] [] 2 ![1]
  gather_S100000x64_S100000x35x1_S100000x35x64_2_0_n_n_0_2_164_wf : GatherDims.WF S100000x64 S100000x35x1 S100000x35x64 [2] [0] [] [0] [] 2 ![1, 64]

variable [Facts₀]

def gather_S100000_S100000x35x1_S100000x35_n_0_n_n_0_2_1 : GatherDims S100000 S100000x35x1 S100000x35 where
  offsetDims := []
  collapsedSliceDims := [0]
  operandBatchingDims := []
  startIndicesBatchingDims := []
  startIndexMap := [0]
  indexVectorDim := 2
  sliceSizes := ![1]
  wf := gather_S100000_S100000x35x1_S100000x35_n_0_n_n_0_2_1_wf
def gather_S100000x64_S100000x35x1_S100000x35x64_2_0_n_n_0_2_164 : GatherDims S100000x64 S100000x35x1 S100000x35x64 where
  offsetDims := [2]
  collapsedSliceDims := [0]
  operandBatchingDims := []
  startIndicesBatchingDims := []
  startIndexMap := [0]
  indexVectorDim := 2
  sliceSizes := ![1, 64]
  wf := gather_S100000x64_S100000x35x1_S100000x35x64_2_0_n_n_0_2_164_wf

class Facts : Prop extends Facts₀ where

variable [Facts]
-- ==== Proof.Pieces.lean ====
/- What one run of the kernel body leaves in the two accumulator blocks, as values.

   At the first grid point the body first stores zero into each accumulator and then adds the block's partial sum
   to what it reads back, so it leaves "zero plus the block's sum"; at every later point it adds the block's partial
   sum to what the point before left. The stored values are the body's own arithmetic terms of the four input
   blocks; nothing here depends on the float instance. -/
import proofs.«124775_j33517924778311_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.Tactic

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A later point leaves in the loss accumulator what it held plus the block's sum of loss times validity. -/
theorem lossAcc_later (c : Dev nD) (i : grid0.Coords) (arg1 : Memref sig .tc .vmem S400x64 .f32) (harg1 : arg1.IsWhole) (arg2 : Memref sig .tc .vmem S400x35x64 .f32) (harg2 : arg2.IsWhole) (arg3 : Memref sig .tc .vmem S400x35 .f32) (harg3 : arg3.IsWhole) (arg4 : Memref sig .tc .vmem S400x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i)
    (x0 : Vec F S400x64 .f32) (x1 : Vec F S400x35x64 .f32) (x2 : Vec F S400x35 .f32) (x3 : Vec F S400x1 .f32) (xo4 xo5 : Vec F S1x1 .f32) :
    out0_B_4 c i arg1 harg1 arg2 harg2 arg3 harg3 arg4 harg4 arg5 harg5 arg6 harg6 hc0 x0 x1 x2 x3 xo4 xo5 = k0_pay1 (k0_pay5 x3) (k0_pay6 x0 x1 x2) xo4 := by
  unfold out0_B_4
  rw [View.read_writes_eq_canon _ _ _ (cover0_B_4 c i arg1 harg1 arg2 harg2 arg3 harg3 arg4 harg4 arg5 harg5 arg6 harg6 hc0 x0 x1 x2 x3 xo4 xo5)]
  unfold kernelRun0_B
  dsimp only
  sl_unfold_words
  rw [View.canon_unit_zero hz2]
  simp only [View.readAt_eq_ld, harg1.read_unread, harg2.read_unread, harg3.read_unread, harg4.read_unread, harg5.read_unread,
    View.ld_unit_zero (S := S400x64) hz2, View.ld_unit_zero (S := S400x35x64) hz3, View.ld_unit_zero (S := S400x35) hz2,
    View.ld_unit_zero (S := S400x1) hz2, View.ld_unit_zero (S := S1x1) hz2]

/-- A later point leaves in the count accumulator what it held plus the block's sum of validity weights. -/
theorem cntAcc_later (c : Dev nD) (i : grid0.Coords) (arg1 : Memref sig .tc .vmem S400x64 .f32) (harg1 : arg1.IsWhole) (arg2 : Memref sig .tc .vmem S400x35x64 .f32) (harg2 : arg2.IsWhole) (arg3 : Memref sig .tc .vmem S400x35 .f32) (harg3 : arg3.IsWhole) (arg4 : Memref sig .tc .vmem S400x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i)
    (x0 : Vec F S400x64 .f32) (x1 : Vec F S400x35x64 .f32) (x2 : Vec F S400x35 .f32) (x3 : Vec F S400x1 .f32) (xo4 xo5 : Vec F S1x1 .f32) :
    out0_B_5 c i arg1 harg1 arg2 harg2 arg3 harg3 arg4 harg4 arg5 harg5 arg6 harg6 hc0 x0 x1 x2 x3 xo4 xo5 = k0_pay2 (k0_pay5 x3) xo5 := by
  unfold out0_B_5
  rw [View.read_writes_eq_canon _ _ _ (cover0_B_5 c i arg1 harg1 arg2 harg2 arg3 harg3 arg4 harg4 arg5 harg5 arg6 harg6 hc0 x0 x1 x2 x3 xo4 xo5)]
  unfold kernelRun0_B
  dsimp only
  sl_unfold_words
  rw [View.canon_unit_zero hz2]
  simp only [View.readAt_eq_ld, harg1.read_unread, harg2.read_unread, harg3.read_unread, harg4.read_unread, harg6.read_unread,
    View.ld_unit_zero (S := S400x64) hz2, View.ld_unit_zero (S := S400x35x64) hz3, View.ld_unit_zero (S := S400x35) hz2,
    View.ld_unit_zero (S := S400x1) hz2, View.ld_unit_zero (S := S1x1) hz2]

/-- The first point leaves in the loss accumulator the reset value plus the block's sum. -/
theorem lossAcc_first (c : Dev nD) (i : grid0.Coords) (arg1 : Memref sig .tc .vmem S400x64 .f32) (harg1 : arg1.IsWhole) (arg2 : Memref sig .tc .vmem S400x35x64 .f32) (harg2 : arg2.IsWhole) (arg3 : Memref sig .tc .vmem S400x35 .f32) (harg3 : arg3.IsWhole) (arg4 : Memref sig .tc .vmem S400x1 .f32) (harg4 : arg4.IsWhole) (arg5 : Memref sig .tc .vmem S1x1 .f32) (harg5 : arg5.IsWhole) (arg6 : Memref sig .tc .vmem S1x1 .f32) (harg6 : arg6.IsWhole) (hc0 : cond0_0 i)
    (x0 : Vec F S400x64 .f32) (x1 : Vec F S400x35x64 .f32) (x2 : Vec F S400x35 .f32) (x3 : Vec F S400x1 .f32) :
    out0_A_4 c i arg1 harg1 arg2 harg2 arg3 harg3 arg4 harg4 arg5 harg5 arg6 harg6 hc0 x0 x1 x2 x3 = k0_pay1 (k0_pay5 x3) (k0_pay6 x0 x1 x2) (k0_pay3 (F := F)) := by
  unfold out0_A_4
  rw [View.read_writes_eq_canon _ _ _ (cover0_A_4 c i arg1 harg1 arg2 harg2 arg3 harg3 arg4 harg4 arg5 harg5 arg6 harg6 hc0 x0 x1 x2 x3)]
  unfold kernelRun0_A
  dsimp only
  sl_unfold_words
  rw [View.canon_cons_unit_zero (S := S1x1) hz2, View.readCov_unit_zero (S := S1x1) _ hz2]
  simp only [View.readAt_eq_ld, harg1.read_unread, harg2.read_unread, harg3.read_unread, harg4.read_unread,
    View.ld_unit_zero (S := S400x64) hz2, View.ld_unit_zero (S := S400x35x64) hz3, View.ld_unit_zero (S := S400x35) hz2,
    View.ld_unit_zero (S := S400x1) hz2, View.ld_unit_zero (S := S1x1) hz2]

/-- The first point leaves in the count accumulator the reset value plus the block's sum of validity weights. -/
theorem cntAcc_first (c : Dev nD) (i : grid0.Coords) (arg1 : Memref sig .tc .vmem S400x64 .f32) (harg1 : arg1.IsWhole) (arg2 : Memref sig .tc .vmem S400x35x64 .f32) (harg2 : arg2.IsWhole) (arg3 : Memref sig .tc .vmem S400x35 .f32) (harg3 : arg3.IsWhole) (arg4 : Memref sig .tc .vmem S400x1 .f32) (harg4 : arg4.IsWhole) (arg5 : Memref sig .tc .vmem S1x1 .f32) (harg5 : arg5.IsWhole) (arg6 : Memref sig .tc .vmem S1x1 .f32) (harg6 : arg6.IsWhole) (hc0 : cond0_0 i)
    (x0 : Vec F S400x64 .f32) (x1 : Vec F S400x35x64 .f32) (x2 : Vec F S400x35 .f32) (x3 : Vec F S400x1 .f32) :
    out0_A_5 c i arg1 harg1 arg2 harg2 arg3 harg3 arg4 harg4 arg5 harg5 arg6 harg6 hc0 x0 x1 x2 x3 = k0_pay2 (k0_pay5 x3) (k0_pay4 (F := F)) := by
  unfold out0_A_5
  rw [View.read_writes_eq_canon _ _ _ (cover0_A_5 c i arg1 harg1 arg2 harg2 arg3 harg3 arg4 harg4 arg5 harg5 arg6 harg6 hc0 x0 x1 x2 x3)]
  unfold kernelRun0_A
  dsimp only
  sl_unfold_words
  rw [View.canon_cons_unit_zero (S := S1x1) hz2, View.readCov_unit_zero (S := S1x1) _ hz2]
  simp only [View.readAt_eq_ld, harg1.read_unread, harg2.read_unread, harg3.read_unread, harg4.read_unread,
    View.ld_unit_zero (S := S400x64) hz2, View.ld_unit_zero (S := S400x35x64) hz3, View.ld_unit_zero (S := S400x35) hz2,
    View.ld_unit_zero (S := S400x1) hz2, View.ld_unit_zero (S := S1x1) hz2]

end Cert.KernelIdeal.Pieces

end
-- ==== Proof.LossSpec.lean ====
/- The contrastive loss as one function on the extended reals.

   A point carries a feature row `f` (64 entries), the feature rows `g k` of its 35 neighbours, and a weight `p k`
   per neighbour (1 where the neighbour has the point's label, else 0). With d k = -sqrt (Σ_c (f c - g k c)² + ε)
   and e k = exp ((d k - max_k d k) / T), the point's loss is -log ((Σ_k e k · p k) / (Σ_k e k) + ε).
   The batch result is (Σ_i loss i · w i) / max (Σ_i w i) 1, times 1, with w i the point's validity weight.
   Every operation is the exact one on the extended reals; the constants are the exact values of their
   single-precision words, the same words in both programs, so they are never evaluated. -/
import Idealize.ShloMosaic.PureOps.Ideal
import Idealize.ShloMosaic.PureOps.Ideal.Laws
import Idealize.ShloMosaic.Lib.ValueIdx

noncomputable section

open scoped BigOperators

namespace Cert.Contrast

open Idealize.ShloMosaic Idealize.ShloMosaic.ValueIdx

/-- ε: the constant under the root and inside the logarithm. -/
abbrev eps : EReal := Ideal.ofBits .f32 0x33D6BF95#32
/-- T: the temperature. -/
abbrev temp : EReal := Ideal.ofBits .f32 0x3DCCCCCD#32
/-- The value a running maximum starts from (-∞'s word). -/
abbrev maxStart : EReal := Ideal.ofBits .f32 0xFF800000#32
/-- The word of 1.0. -/
abbrev oneW : EReal := Ideal.ofBits .f32 0x3F800000#32

/-- Minus the ε-smoothed Euclidean distance between two feature rows. -/
def negDist (f g : Fin 64 → EReal) : EReal :=
  -Ideal.sqrt ((∑ c : Fin 64, (f c - g c) * (f c - g c)) + eps)

/-- The largest of a point's 35 negated distances. -/
def rowMax (f : Fin 64 → EReal) (g : Fin 35 → Fin 64 → EReal) : EReal :=
  (Finset.univ : Finset (Fin 35)).fold max maxStart (fun k => negDist f (g k))

/-- A neighbour's unnormalised soft-max weight. -/
def softW (f : Fin 64 → EReal) (g : Fin 35 → Fin 64 → EReal) (k : Fin 35) : EReal :=
  Ideal.exp (Ideal.div (negDist f (g k) - rowMax f g) temp)

/-- One point's loss. -/
def rowLoss (f : Fin 64 → EReal) (g : Fin 35 → Fin 64 → EReal) (p : Fin 35 → EReal) : EReal :=
  -Ideal.log (Ideal.div (∑ k : Fin 35, softW f g k * p k) (∑ k : Fin 35, softW f g k) + eps)

/-- Point `i`'s loss, read off the three arrays: features, gathered neighbour features, label-match weights. -/
def lossAt (a : (⟨2, ![100000, 64]⟩ : Shape).Idx → EReal) (nf : (⟨3, ![100000, 35, 64]⟩ : Shape).Idx → EReal)
    (pm : (⟨2, ![100000, 35]⟩ : Shape).Idx → EReal) (i : Fin 100000) : EReal :=
  rowLoss (fun c => a (ix2 i c)) (fun k c => nf (ix3 i k c)) (fun k => pm (ix2 i k))

/-- The weighted sum of the points' losses. -/
def sumLoss (a : (⟨2, ![100000, 64]⟩ : Shape).Idx → EReal) (nf : (⟨3, ![100000, 35, 64]⟩ : Shape).Idx → EReal)
    (pm : (⟨2, ![100000, 35]⟩ : Shape).Idx → EReal) (w : Fin 100000 → EReal) : EReal :=
  ∑ i : Fin 100000, lossAt a nf pm i * w i

/-- The sum of the validity weights. -/
def sumCnt (w : Fin 100000 → EReal) : EReal := ∑ i : Fin 100000, w i

/-- The batch loss: the weighted mean over the valid points (the divisor at least 1), times the unit weight. -/
def meanLoss (a : (⟨2, ![100000, 64]⟩ : Shape).Idx → EReal) (nf : (⟨3, ![100000, 35, 64]⟩ : Shape).Idx → EReal)
    (pm : (⟨2, ![100000, 35]⟩ : Shape).Idx → EReal) (w : Fin 100000 → EReal) : EReal :=
  Ideal.div (sumLoss a nf pm w) (max (sumCnt w) oneW) * oneW

/-- On the extended reals subtracting from zero is negation (also at the infinities). -/
theorem zero_sub_eq_neg (x : EReal) : (0 : EReal) - x = -x := by
  rw [sub_eq_add_neg, zero_add]

end Cert.Contrast

end
-- ==== Proof.LibKeepdims.lean ====
/- Layout operations and one-axis reductions of small ranks read at an index written by coordinates.

   What a row-wise kernel with `keepdims` sums meets: a column [a] viewed as [a, 1]; a matrix [a, c] viewed as
   [a, 1, c]; the broadcasts [a, 1, c] → [a, b, c] and [a, 1] → [a, b]; a sum or a maximum over the last axis of a
   rank-3 or rank-2 vector, and a sum over the first axis of a rank-2 vector, each as a sum or fold over that axis's
   coordinate; the host's reductions over the last axis of a rank-2 array likewise. Every shape fact is a variable,
   so a lemma applies whatever proof term a program carries for it. -/
import Idealize.ShloMosaic.Lib.Pipeline.Value
import Idealize.ShloMosaic.Lib.ValueIdx
import Idealize.ShloMosaic.PureOps.Ideal.Laws

noncomputable section

open scoped BigOperators

namespace Cert.Keepdims

open Idealize.ShloMosaic Idealize.ShloMosaic.ValueIdx

variable {α : Type}

/-- A column [a] viewed as [a, 1] reads, at (r, u), the column at r. -/
theorem shapeCast_a_a1_apply {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A matrix [a, c] viewed as [a, 1, c] reads, at (r, u, q), the matrix at (r, q). -/
theorem shapeCast_ac_a1c_apply {a c : ℕ} (x : (⟨2, ![a, c]⟩ : Shape).Idx → α)
    (h : (⟨2, ![a, c]⟩ : Shape).ShapeCasts ⟨3, ![a, 1, c]⟩) (r : Fin a) (u : Fin 1) (q : Fin c) :
    shapeCast ⟨3, ![a, 1, c]⟩ x h (ix3 r u q) = x (ix2 r q) :=
  shapeCast_apply x h _ _ (by
    have hu : u.val = 0 := by omega
    rw [Shape.rowMajor_val_three, Shape.rowMajor_val_two]
    show r.val * c + q.val = (r.val * 1 + u.val) * c + q.val
    rw [hu, Nat.mul_one, Nat.add_zero])

/-- [a, 1, c] broadcast along its middle axis reads, at (r, k, q), the operand at (r, 0, q). -/
theorem broadcastTo_a1c_abc_apply {a b c : ℕ} (x : (⟨3, ![a, 1, c]⟩ : Shape).Idx → α)
    (h : (⟨3, ![a, 1, c]⟩ : Shape).Broadcasts ⟨3, ![a, b, c]⟩) (r : Fin a) (k : Fin b) (q : Fin c) :
    broadcastTo ⟨3, ![a, b, c]⟩ x h (ix3 r k q) = x (ix3 r (0 : Fin 1) q) :=
  broadcastTo_apply x h _ _ (fun ax => match ax with
    | ⟨0, _⟩ => by
      have := r.isLt
      show r.val = if a = 1 then 0 else r.val
      split <;> omega
    | ⟨1, _⟩ => by
      show 0 = if (1 : ℕ) = 1 then 0 else k.val
      rw [if_pos rfl]
    | ⟨2, _⟩ => by
      have := q.isLt
      show q.val = if c = 1 then 0 else q.val
      split <;> omega)

/-- A column [a, 1] broadcast along its unit axis reads, at (r, k), the column at (r, 0). -/
theorem broadcastTo_a1_ab_apply {a b : ℕ} (x : (⟨2, ![a, 1]⟩ : Shape).Idx → α)
    (h : (⟨2, ![a, 1]⟩ : Shape).Broadcasts ⟨2, ![a, b]⟩) (r : Fin a) (k : Fin b) :
    broadcastTo ⟨2, ![a, b]⟩ x h (ix2 r k) = x (ix2 r (0 : Fin 1)) :=
  broadcastTo_apply x h _ _ (fun ax => match ax with
    | ⟨0, _⟩ => by
      have := r.isLt
      show r.val = if a = 1 then 0 else r.val
      split <;> omega
    | ⟨1, _⟩ => by
      show 0 = if (1 : ℕ) = 1 then 0 else k.val
      rw [if_pos rfl])

/-- The index over (r, k) with q inserted on the last of three axes is (r, k, q). -/
theorem lift_last3 {a b c : ℕ} (h : (⟨3, ![a, b, c]⟩ : Shape).Reduces [2] ⟨2, ![a, b]⟩) (r : Fin a) (k : Fin b) (q : Fin c) :
    h.lift (ix2 r k) q = ix3 r k q :=
  funext fun ax => Fin.ext (by match ax with | ⟨0, _⟩ => rfl | ⟨1, _⟩ => rfl | ⟨2, _⟩ => rfl)

/-- The index over (r) with k inserted on the last of two axes is (r, k). -/
theorem lift_last2 {a b : ℕ} (h : (⟨2, ![a, b]⟩ : Shape).Reduces [1] ⟨1, ![a]⟩) (r : Fin a) (k : Fin b) :
    h.lift (ix1 r) k = ix2 r k :=
  funext fun ax => Fin.ext (by match ax with | ⟨0, _⟩ => rfl | ⟨1, _⟩ => rfl)

/-- The index over (q) with r inserted on the first of two axes is (r, q). -/
theorem lift_first2 {a b : ℕ} (h : (⟨2, ![a, b]⟩ : Shape).Reduces [0] ⟨1, ![b]⟩) (r : Fin a) (q : Fin b) :
    h.lift (ix1 q) r = ix2 r q :=
  funext fun ax => Fin.ext (by match ax with | ⟨0, _⟩ => rfl | ⟨1, _⟩ => rfl)

variable {φ : FTy}

/-- A sum over the last of three axes, at (r, k): the sum over q of the source at (r, k, q). -/
theorem sum_last3_apply {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (r : Fin a) (k : Fin b) :
    multiReduction .add [2] ⟨2, ![a, b]⟩ src acc h hφ hacc (ix2 r k) = ∑ q : Fin c, src (ix3 r k q) :=
  (Ideal.multiReduction_add_single src acc h hφ hacc (ix2 r k)).trans
    (Finset.sum_congr rfl fun q _ => congrArg src (lift_last3 h r k q))

/-- A sum over the last of two axes, at (r): the sum over k of the source at (r, k). -/
theorem sum_last2_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_last2 h r k))

/-- A sum over the first of two axes, at (q): the sum over r of the source at (r, q). -/
theorem sum_first2_apply {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] ⟨1, ![b]⟩ src acc h hφ hacc (ix1 q) = ∑ r : Fin a, src (ix2 r q) :=
  (Ideal.multiReduction_add_single src acc h hφ hacc (ix1 q)).trans
    (Finset.sum_congr rfl fun r _ => congrArg src (lift_first2 h r q))

/-- A maximum over the last of two axes, at (r): the fold of max, from the accumulator's value, over k of the
    source at (r, k). -/
theorem max_last2_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) :=
  (Ideal.multiReduction_maximumf_single src acc h hφ hacc (ix1 r)).trans
    (congrArg (fun g => (Finset.univ : Finset (Fin b)).fold max (Ideal.ofBits φ acc) g)
      (funext fun k => congrArg src (lift_last2 h r k)))

/-- The host's maximum over the last of two axes, at (r): the same fold, from the initial value's element. -/
theorem host_max_last2_apply {a b : ℕ} {u : Shape} (x : (⟨2, ![a, b]⟩ : Shape).Idx → EReal) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := φ)) x init h' hu (ix1 r)
      = (Finset.univ : Finset (Fin b)).fold max (init (Shape.Idx.first hu)) (fun k => x (ix2 r k)) :=
  (Host.reduce_eq_fold_single (FloatOps.maximumf (F := Ideal) (φ := φ)) x init h' h hu (ix1 r)).trans
    (congrArg (fun g => (Finset.univ : Finset (Fin b)).fold max (init (Shape.Idx.first hu)) g)
      (funext fun k => congrArg x (lift_last2 h r k)))

end Cert.Keepdims

end
-- ==== Proof.KernelRow.lean ====
/- The kernel body's arithmetic read row by row, on the extended reals.

   The body works on a block of 400 points. For one row r of the block: the squared differences between the point's
   features and each neighbour's summed over the 64 channels, plus ε, rooted and negated, give the 35 negated
   distances; their maximum is subtracted, the result divided by the temperature and exponentiated; the weights'
   sum against the label-match block over their plain sum, plus ε, logged and negated, is the point's loss: exactly
   the specification's `rowLoss` of row r of the three input blocks. The block's two partial sums added to the
   accumulators are then sums over the 400 rows. -/
import proofs.«124775_j33517924778311_1_alg».proof.Proof.Gen.KernelIdeal.Skeleton
import proofs.«124775_j33517924778311_1_alg».proof.Proof.LossSpec
import proofs.«124775_j33517924778311_1_alg».proof.Proof.LibKeepdims

noncomputable section

open scoped BigOperators

namespace Cert.KernelIdeal.RowVal

open Cert.KernelIdeal Cert.KernelIdeal.Gen Idealize.ShloMosaic Idealize.ShloMosaic.ValueIdx Cert.Contrast Cert.Keepdims

variable (x0 : FVec Ideal S400x64 .f32) (x1 : FVec Ideal S400x35x64 .f32) (x2 : FVec Ideal S400x35 .f32)

/-- The squared differences, channel by channel, between each point's features and each of its neighbours'. -/
def sqDiff : FVec Ideal S400x35x64 .f32 :=
  mulf
    (subf (broadcastTo S400x35x64 (shapeCast S400x1x64 x0 shapeCasts_S400x64_S400x1x64) broadcasts_S400x1x64_S400x35x64)
      (shapeCast S400x35x64 x1 shapeCasts_S400x35x64_S400x35x64))
    (subf (broadcastTo S400x35x64 (shapeCast S400x1x64 x0 shapeCasts_S400x64_S400x1x64) broadcasts_S400x1x64_S400x35x64)
      (shapeCast S400x35x64 x1 shapeCasts_S400x35x64_S400x35x64))

theorem sqDiff_apply (r : Fin 400) (k : Fin 35) (c : Fin 64) :
    sqDiff x0 x1 (ix3 r k c) = (x0 (ix2 r c) - x1 (ix3 r k c)) * (x0 (ix2 r c) - x1 (ix3 r k c)) := by
  have e1 : broadcastTo S400x35x64 (shapeCast S400x1x64 x0 shapeCasts_S400x64_S400x1x64) broadcasts_S400x1x64_S400x35x64
      (ix3 r k c) = x0 (ix2 r c) :=
    (broadcastTo_a1c_abc_apply _ _ r k c).trans (shapeCast_ac_a1c_apply x0 _ r 0 c)
  have e2 : shapeCast S400x35x64 x1 shapeCasts_S400x35x64_S400x35x64 = x1 := shapeCast_self x1 _
  unfold sqDiff
  simp only [mulf_apply, subf_apply, e1, e2]

/-- The negated ε-smoothed distances of the block: one per point and neighbour. -/
def negd : FVec Ideal S400x35 .f32 :=
  subf (broadcast S400x35 (Scalar.ofBits .f32 0x00000000#32))
    (sqrt (addf (multiReduction .add [2] S400x35 (sqDiff x0 x1) 0x00000000#32 reduces_S400x35x64_S400x35 (.inl rfl) rfl)
      (broadcast S400x35 (Scalar.ofBits .f32 0x33D6BF95#32))))

theorem negd_apply (r : Fin 400) (k : Fin 35) :
    negd x0 x1 (ix2 r k) = negDist (fun c => x0 (ix2 r c)) (fun c => x1 (ix3 r k c)) := by
  have e : multiReduction .add [2] S400x35 (sqDiff x0 x1) 0x00000000#32 reduces_S400x35x64_S400x35 (.inl rfl) rfl (ix2 r k)
      = ∑ c : Fin 64, sqDiff x0 x1 (ix3 r k c) := sum_last3_apply _ _ _ _ _ r k
  rw [show negd x0 x1 (ix2 r k) = Ideal.ofBits .f32 0x00000000#32
      - Ideal.sqrt (multiReduction .add [2] S400x35 (sqDiff x0 x1) 0x00000000#32 reduces_S400x35x64_S400x35 (.inl rfl) rfl (ix2 r k)
          + eps) from rfl, e, Ideal.ofBits_zero_f32, zero_sub_eq_neg]
  unfold negDist
  simp only [sqDiff_apply]

/-- Each point's largest negated distance. -/
def rmax : FVec Ideal S400 .f32 :=
  multiReduction .maximumf [1] S400 (negd x0 x1) 0xFF800000#32 reduces_S400x35_S400 (.inl rfl) rfl

theorem rmax_apply (r : Fin 400) :
    rmax x0 x1 (ix1 r) = rowMax (fun c => x0 (ix2 r c)) (fun k c => x1 (ix3 r k c)) := by
  unfold rmax rowMax
  refine (max_last2_apply _ _ _ _ _ r).trans ?_
  simp only [negd_apply]

/-- The unnormalised soft-max weights of the block. -/
def exw : FVec Ideal S400x35 .f32 :=
  exp (divf
    (subf (negd x0 x1) (broadcastTo S400x35 (shapeCast S400x1 (rmax x0 x1) shapeCasts_S400_S400x1) broadcasts_S400x1_S400x35))
    (broadcast S400x35 (Scalar.ofBits .f32 0x3DCCCCCD#32)))

theorem exw_apply (r : Fin 400) (k : Fin 35) :
    exw x0 x1 (ix2 r k) = softW (fun c => x0 (ix2 r c)) (fun k c => x1 (ix3 r k c)) k := by
  have e : broadcastTo S400x35 (shapeCast S400x1 (rmax x0 x1) shapeCasts_S400_S400x1) broadcasts_S400x1_S400x35 (ix2 r k)
      = rmax x0 x1 (ix1 r) :=
    (broadcastTo_a1_ab_apply _ _ r k).trans (shapeCast_a_a1_apply _ _ r 0)
  rw [show exw x0 x1 (ix2 r k) = Ideal.exp (Ideal.div (negd x0 x1 (ix2 r k)
      - broadcastTo S400x35 (shapeCast S400x1 (rmax x0 x1) shapeCasts_S400_S400x1) broadcasts_S400x1_S400x35 (ix2 r k)) temp)
      from rfl, e, negd_apply, rmax_apply]
  rfl

/-- The body's per-point loss column is the specification's loss of each row of the three blocks. -/
theorem pay6_apply (r : Fin 400) :
    k0_pay6 (F := Ideal) x0 x1 x2 (ix2 r (0 : Fin 1))
      = rowLoss (fun c => x0 (ix2 r c)) (fun k c => x1 (ix3 r k c)) (fun k => x2 (ix2 r k)) := by
  have ep : shapeCast S400x1 (multiReduction .add [1] S400 (mulf (exw x0 x1) (shapeCast S400x35 x2 shapeCasts_S400x35_S400x35))
        0x00000000#32 reduces_S400x35_S400 (.inl rfl) rfl) shapeCasts_S400_S400x1 (ix2 r (0 : Fin 1))
      = ∑ k : Fin 35, softW (fun c => x0 (ix2 r c)) (fun k c => x1 (ix3 r k c)) k * x2 (ix2 r k) := by
    refine (shapeCast_a_a1_apply _ _ r 0).trans ((sum_last2_apply _ _ _ _ _ r).trans ?_)
    have e2 : shapeCast S400x35 x2 shapeCasts_S400x35_S400x35 = x2 := shapeCast_self x2 _
    simp only [mulf_apply, e2, exw_apply]
  have en : shapeCast S400x1 (multiReduction .add [1] S400 (exw x0 x1)
        0x00000000#32 reduces_S400x35_S400 (.inl rfl) rfl) shapeCasts_S400_S400x1 (ix2 r (0 : Fin 1))
      = ∑ k : Fin 35, softW (fun c => x0 (ix2 r c)) (fun k c => x1 (ix3 r k c)) k := by
    refine (shapeCast_a_a1_apply _ _ r 0).trans ((sum_last2_apply _ _ _ _ _ r).trans ?_)
    simp only [exw_apply]
  rw [show k0_pay6 (F := Ideal) x0 x1 x2 (ix2 r (0 : Fin 1)) = Ideal.ofBits .f32 0x00000000#32 - Ideal.log (Ideal.div
      (shapeCast S400x1 (multiReduction .add [1] S400 (mulf (exw x0 x1) (shapeCast S400x35 x2 shapeCasts_S400x35_S400x35))
        0x00000000#32 reduces_S400x35_S400 (.inl rfl) rfl) shapeCasts_S400_S400x1 (ix2 r (0 : Fin 1)))
      (shapeCast S400x1 (multiReduction .add [1] S400 (exw x0 x1)
        0x00000000#32 reduces_S400x35_S400 (.inl rfl) rfl) shapeCasts_S400_S400x1 (ix2 r (0 : Fin 1))) + eps) from rfl,
    ep, en, Ideal.ofBits_zero_f32, zero_sub_eq_neg]
  rfl

/-- The validity column the body keeps is the input block itself. -/
theorem pay5_eq (x3 : FVec Ideal S400x1 .f32) : k0_pay5 (F := Ideal) x3 = x3 := shapeCast_self x3 _

/-- What the body stores into the loss accumulator: its old content plus the block's sum of loss times validity. -/
theorem pay1_apply (v9 v37 : FVec Ideal S400x1 .f32) (acc : FVec Ideal S1x1 .f32) :
    k0_pay1 (F := Ideal) v9 v37 acc (ix2 (0 : Fin 1) (0 : Fin 1))
      = acc (ix2 (0 : Fin 1) (0 : Fin 1)) + ∑ r : Fin 400, v37 (ix2 r (0 : Fin 1)) * v9 (ix2 r (0 : Fin 1)) := by
  have e1 : shapeCast S1x1 acc shapeCasts_S1x1_S1x1 = acc := shapeCast_self acc _
  have e2 : shapeCast S1x1 (multiReduction .add [0] S1 (mulf v37 v9) 0x00000000#32 reduces_S400x1_S1 (.inl rfl) rfl)
        shapeCasts_S1_S1x1 (ix2 (0 : Fin 1) (0 : Fin 1)) = ∑ r : Fin 400, v37 (ix2 r (0 : Fin 1)) * v9 (ix2 r (0 : Fin 1)) :=
    (shapeCast_a_a1_apply _ _ (0 : Fin 1) (0 : Fin 1)).trans (sum_first2_apply _ _ _ _ _ (0 : Fin 1))
  rw [show k0_pay1 (F := Ideal) v9 v37 acc (ix2 (0 : Fin 1) (0 : Fin 1))
      = shapeCast S1x1 acc shapeCasts_S1x1_S1x1 (ix2 (0 : Fin 1) (0 : Fin 1))
        + shapeCast S1x1 (multiReduction .add [0] S1 (mulf v37 v9) 0x00000000#32 reduces_S400x1_S1 (.inl rfl) rfl)
            shapeCasts_S1_S1x1 (ix2 (0 : Fin 1) (0 : Fin 1)) from rfl, e1, e2]

/-- What the body stores into the count accumulator: its old content plus the block's sum of validity weights. -/
theorem pay2_apply (v9 : FVec Ideal S400x1 .f32) (acc : FVec Ideal S1x1 .f32) :
    k0_pay2 (F := Ideal) v9 acc (ix2 (0 : Fin 1) (0 : Fin 1))
      = acc (ix2 (0 : Fin 1) (0 : Fin 1)) + ∑ r : Fin 400, v9 (ix2 r (0 : Fin 1)) := by
  have e1 : shapeCast S1x1 acc shapeCasts_S1x1_S1x1 = acc := shapeCast_self acc _
  have e2 : shapeCast S1x1 (multiReduction .add [0] S1 v9 0x00000000#32 reduces_S400x1_S1 (.inl rfl) rfl)
        shapeCasts_S1_S1x1 (ix2 (0 : Fin 1) (0 : Fin 1)) = ∑ r : Fin 400, v9 (ix2 r (0 : Fin 1)) :=
    (shapeCast_a_a1_apply _ _ (0 : Fin 1) (0 : Fin 1)).trans (sum_first2_apply _ _ _ _ _ (0 : Fin 1))
  rw [show k0_pay2 (F := Ideal) v9 acc (ix2 (0 : Fin 1) (0 : Fin 1))
      = shapeCast S1x1 acc shapeCasts_S1x1_S1x1 (ix2 (0 : Fin 1) (0 : Fin 1))
        + shapeCast S1x1 (multiReduction .add [0] S1 v9 0x00000000#32 reduces_S400x1_S1 (.inl rfl) rfl)
            shapeCasts_S1_S1x1 (ix2 (0 : Fin 1) (0 : Fin 1)) from rfl, e1, e2]

/-- The accumulators' reset value is zero. -/
theorem pay3_apply (j : S1x1.Idx) : k0_pay3 (F := Ideal) j = 0 := Ideal.ofBits_zero_f32
theorem pay4_apply (j : S1x1.Idx) : k0_pay4 (F := Ideal) j = 0 := Ideal.ofBits_zero_f32

end Cert.KernelIdeal.RowVal

end
-- ==== Proof.LibBlockSum.lean ====
/- Sums over consecutive blocks, and a running sum as a finite sum.

   A sum over B blocks of R consecutive positions each is the sum over all B · R positions; a sequence that starts at
   `0 + c 0` and adds `c (n + 1)` at each step is, after step n, the sum of `c` over the first n + 1 steps. Both hold in
   any commutative additive monoid (the extended reals are one: regrouping a sum needs no finiteness). -/
import Mathlib.Algebra.BigOperators.Group.Finset.Basic
import Mathlib.Algebra.BigOperators.Fin
import Mathlib.Data.Fintype.BigOperators

namespace Cert.BlockSum

open scoped BigOperators

/-- Position `r` of block `t`, among all `N = B · R` positions. -/
def pos {B R N : Nat} (hN : B * R = N) (t : Fin B) (r : Fin R) : Fin N :=
  ⟨R * t.val + r.val, by
    have h1 := t.isLt
    have h2 := r.isLt
    have h3 : R * t.val + r.val < R * (t.val + 1) := by rw [Nat.mul_succ]; omega
    have h4 : R * (t.val + 1) ≤ R * B := Nat.mul_le_mul_left R h1
    rw [← hN, Nat.mul_comm B R]
    omega⟩

/-- The sum over the blocks of the sums over a block's positions is the sum over all positions. -/
theorem sum_blocks {M : Type*} [AddCommMonoid M] {B R N : Nat} (hN : B * R = N) (f : Fin N → M) :
    ∑ t : Fin B, ∑ r : Fin R, f (pos hN t r) = ∑ n : Fin N, f n := by
  subst hN
  rw [← Fintype.sum_prod_type' (fun t r => f (pos rfl t r)), ← Equiv.sum_comp finProdFinEquiv f]
  refine Finset.sum_congr rfl fun x _ => ?_
  congr 1
  apply Fin.ext
  show R * x.1.val + x.2.val = x.2.val + R * x.1.val
  exact Nat.add_comm _ _

/-- The block that holds position `n`, and `n`'s place in it. -/
theorem pos_div_mod {B R N : Nat} (hN : B * R = N) (hR : 0 < R) (n : Fin N) :
    ∃ (t : Fin B) (r : Fin R), n = pos hN t r ∧ t.val = n.val / R ∧ r.val = n.val % R := by
  have hn : n.val / R < B := by
    rw [Nat.div_lt_iff_lt_mul hR, hN]
    exact n.isLt
  refine ⟨⟨n.val / R, hn⟩, ⟨n.val % R, Nat.mod_lt _ hR⟩, ?_, rfl, rfl⟩
  apply Fin.ext
  show n.val = R * (n.val / R) + n.val % R
  exact (Nat.div_add_mod n.val R).symm

/-- A running sum from `0 + c 0`, adding `c (n + 1)` at step n + 1, is the sum over the first n + 1 steps. -/
theorem running_sum {M : Type*} [AddCommMonoid M] (c acc : ℕ → M) (h0 : acc 0 = 0 + c 0)
    (hs : ∀ n, acc (n + 1) = acc n + c (n + 1)) (n : ℕ) : acc n = ∑ t ∈ Finset.range (n + 1), c t := by
  induction n with
  | zero =>
    show acc 0 = ∑ t ∈ Finset.range 1, c t
    rw [h0, zero_add, Finset.sum_range_one]
  | succ n ih => rw [hs, ih, Finset.sum_range_succ c (n + 1)]

/-- The same sum over `Fin`: the first B steps as a sum over `Fin B`. -/
theorem sum_range_eq_sum_fin {M : Type*} [AddCommMonoid M] (B : ℕ) (c : ℕ → M) :
    ∑ t ∈ Finset.range B, c t = ∑ t : Fin B, c t.val :=
  Finset.sum_range c

end Cert.BlockSum
-- ==== Proof.Accum.lean ====
/- The two accumulators after the last grid point, as sums over all 100000 points.

   Grid point t reads rows 400·t … 400·t + 399 of the four streamed arrays. After point n each accumulator holds
   the sum, over the points 0 … n, of the block's partial sum (zero plus the first block's, then one more block per
   point): a running sum, which is a finite sum; and the sum over the 250 blocks of the sums over a block's 400 rows
   is the sum over all rows. With each row's loss the specification's `lossAt`, the loss accumulator ends at
   `sumLoss` and the count accumulator at `sumCnt` of the arrays the region finds. -/
import proofs.«124775_j33517924778311_1_alg».proof.Proof.Pieces
import proofs.«124775_j33517924778311_1_alg».proof.Proof.KernelRow
import proofs.«124775_j33517924778311_1_alg».proof.Proof.LibBlockSum
import Idealize.ShloMosaic.Lib.Pipeline.Value

noncomputable section

open scoped BigOperators
open Idealize.ShloMosaic Idealize.ShloMosaic.TcCoe Idealize.SL.Sem Idealize.ShloMosaic.ValueIdx

namespace Cert.KernelIdeal.Accum

open Cert.KernelIdeal Cert.KernelIdeal.Gen Cert.Contrast Cert.KernelIdeal.RowVal Cert.KernelIdeal.Pieces

variable (m : (ℓ : Loc nD τ sig) → Buf (Elt Ideal) ℓ)

/-! ## The blocks a grid point reads -/

/-- The feature rows of grid point t. -/
abbrev blk0 (c : Dev nD) (t : Fin cfg0.N) : FVec Ideal S400x64 .f32 := iblk m c 0 t
/-- The gathered neighbour features of grid point t's rows. -/
abbrev blk1 (c : Dev nD) (t : Fin cfg0.N) : FVec Ideal S400x35x64 .f32 := iblk m c 1 t
/-- The label-match weights of grid point t's rows. -/
abbrev blk2 (c : Dev nD) (t : Fin cfg0.N) : FVec Ideal S400x35 .f32 := iblk m c 2 t
/-- The validity weights of grid point t's rows. -/
abbrev blk3 (c : Dev nD) (t : Fin cfg0.N) : FVec Ideal S400x1 .f32 := iblk m c 3 t

/-- The four arrays the region streams, as it finds them. -/
abbrev arrFeat (c : Dev nD) : FVec Ideal S100000x64 .f32 := V m c main_arg0
abbrev arrNbr (c : Dev nD) : FVec Ideal S100000x35x64 .f32 := V m c main_v13
abbrev arrMatch (c : Dev nD) : FVec Ideal S100000x35 .f32 := V m c main_v24
abbrev arrValid (c : Dev nD) : FVec Ideal S100000x1 .f32 := V m c main_v26

/-- Block t of each array starts at row t (in blocks) and at zero on the other axes: decided over the grid. -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 3) = t.val ∧ win0_1.index t (1 : Fin 3) = 0 ∧ win0_1.index t (2 : Fin 3) = 0 :=
  (by decide +kernel : ∀ t : Fin grid0.N, win0_1.index t (0 : Fin 3) = t.val ∧ win0_1.index t (1 : Fin 3) = 0 ∧ win0_1.index t (2 : Fin 3) = 0)
theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

/-- Row r of block t of the features is row 400·t + r of the array. -/
theorem blk0_apply (c : Dev nD) (t : Fin cfg0.N) (r : Fin 400) (q : Fin 64) (n : Fin 100000) (hn : n.val = 400 * t.val + r.val) :
    blk0 m c t (ix2 r q) = arrFeat m c (ix2 n q) := by
  show V m c main_arg0 (((cfg0.win 0).blk t).view.emb (ix2 r q)) = V m c main_arg0 (ix2 n q)
  refine congrArg (V m c main_arg0) (funext fun a => Fin.ext ?_)
  match a with
  | ⟨0, _⟩ =>
    show win0_0.index t 0 * 400 + 1 * r.val = n.val
    rw [(idx0 t).1, hn]; omega
  | ⟨1, _⟩ =>
    show win0_0.index t 1 * 64 + 1 * q.val = q.val
    rw [(idx0 t).2]; omega

theorem blk1_apply (c : Dev nD) (t : Fin cfg0.N) (r : Fin 400) (k : Fin 35) (q : Fin 64) (n : Fin 100000)
    (hn : n.val = 400 * t.val + r.val) :
    blk1 m c t (ix3 r k q) = arrNbr m c (ix3 n k q) := by
  show V m c main_v13 (((cfg0.win 1).blk t).view.emb (ix3 r k q)) = V m c main_v13 (ix3 n k q)
  refine congrArg (V m c main_v13) (funext fun a => Fin.ext ?_)
  match a with
  | ⟨0, _⟩ =>
    show win0_1.index t 0 * 400 + 1 * r.val = n.val
    rw [(idx1 t).1, hn]; omega
  | ⟨1, _⟩ =>
    show win0_1.index t 1 * 35 + 1 * k.val = k.val
    rw [(idx1 t).2.1]; omega
  | ⟨2, _⟩ =>
    show win0_1.index t 2 * 64 + 1 * q.val = q.val
    rw [(idx1 t).2.2]; omega

theorem blk2_apply (c : Dev nD) (t : Fin cfg0.N) (r : Fin 400) (k : Fin 35) (n : Fin 100000) (hn : n.val = 400 * t.val + r.val) :
    blk2 m c t (ix2 r k) = arrMatch m c (ix2 n k) := by
  show V m c main_v24 (((cfg0.win 2).blk t).view.emb (ix2 r k)) = V m c main_v24 (ix2 n k)
  refine congrArg (V m c main_v24) (funext fun a => Fin.ext ?_)
  match a with
  | ⟨0, _⟩ =>
    show win0_2.index t 0 * 400 + 1 * r.val = n.val
    rw [(idx2 t).1, hn]; omega
  | ⟨1, _⟩ =>
    show win0_2.index t 1 * 35 + 1 * k.val = k.val
    rw [(idx2 t).2]; omega

theorem blk3_apply (c : Dev nD) (t : Fin cfg0.N) (r : Fin 400) (u : Fin 1) (n : Fin 100000) (hn : n.val = 400 * t.val + r.val) :
    blk3 m c t (ix2 r u) = arrValid m c (ix2 n u) := by
  show V m c main_v26 (((cfg0.win 3).blk t).view.emb (ix2 r u)) = V m c main_v26 (ix2 n u)
  refine congrArg (V m c main_v26) (funext fun a => Fin.ext ?_)
  match a with
  | ⟨0, _⟩ =>
    show win0_3.index t 0 * 400 + 1 * r.val = n.val
    rw [(idx3 t).1, hn]; omega
  | ⟨1, _⟩ =>
    show win0_3.index t 1 * 1 + 1 * u.val = u.val
    rw [(idx3 t).2]; omega

/-! ## A block's partial sums -/

/-- Grid point t's contribution to the loss accumulator. -/
def partLoss (c : Dev nD) (t : Fin cfg0.N) : EReal :=
  ∑ r : Fin 400, k0_pay6 (F := Ideal) (blk0 m c t) (blk1 m c t) (blk2 m c t) (ix2 r (0 : Fin 1)) * blk3 m c t (ix2 r (0 : Fin 1))

/-- Grid point t's contribution to the count accumulator. -/
def partCnt (c : Dev nD) (t : Fin cfg0.N) : EReal := ∑ r : Fin 400, blk3 m c t (ix2 r (0 : Fin 1))

/-- The first point leaves zero plus its contribution. -/
theorem first_loss (c : Dev nD) (t : Fin cfg0.N) (h0 : t.val % 250 = 0) :
    (outsAt0 m c t.val t.isLt).1 (ix2 (0 : Fin 1) (0 : Fin 1)) = 0 + partLoss m c t := by
  rw [outsAt0_A m c t h0]; dsimp only
  refine (congrFun (lossAcc_first (F := Ideal) c (grid0.coords t) (ms0_0 t) (hs0_0 t) (ms0_1 t) (hs0_1 t) (ms0_2 t) (hs0_2 t)
    (ms0_3 t) (hs0_3 t) (ms0_4 t) (hs0_4 t) (ms0_5 t) (hs0_5 t) ((hcond0_0 t).mpr h0) (blk0 m c t) (blk1 m c t) (blk2 m c t)
    (blk3 m c t)) (ix2 (0 : Fin 1) (0 : Fin 1))).trans ?_
  refine (pay1_apply (k0_pay5 (F := Ideal) (blk3 m c t)) (k0_pay6 (F := Ideal) (blk0 m c t) (blk1 m c t) (blk2 m c t))
    (k0_pay3 (F := Ideal))).trans ?_
  rw [pay3_apply, pay5_eq]
  rfl

theorem first_cnt (c : Dev nD) (t : Fin cfg0.N) (h0 : t.val % 250 = 0) :
    (outsAt0 m c t.val t.isLt).2 (ix2 (0 : Fin 1) (0 : Fin 1)) = 0 + partCnt m c t := by
  rw [outsAt0_A m c t h0]; dsimp only
  refine (congrFun (cntAcc_first (F := Ideal) c (grid0.coords t) (ms0_0 t) (hs0_0 t) (ms0_1 t) (hs0_1 t) (ms0_2 t) (hs0_2 t)
    (ms0_3 t) (hs0_3 t) (ms0_4 t) (hs0_4 t) (ms0_5 t) (hs0_5 t) ((hcond0_0 t).mpr h0) (blk0 m c t) (blk1 m c t) (blk2 m c t)
    (blk3 m c t)) (ix2 (0 : Fin 1) (0 : Fin 1))).trans ?_
  refine (pay2_apply (k0_pay5 (F := Ideal) (blk3 m c t)) (k0_pay4 (F := Ideal))).trans ?_
  rw [pay4_apply, pay5_eq]
  rfl

/-- A later point adds its contribution to what the point before left. -/
theorem later_loss (c : Dev nD) (t : Fin cfg0.N) (h0 : ¬t.val % 250 = 0) :
    (outsAt0 m c t.val t.isLt).1 (ix2 (0 : Fin 1) (0 : Fin 1))
      = (outsAt0 m c (t.val - 1) (Nat.lt_of_le_of_lt (Nat.sub_le _ _) t.isLt)).1 (ix2 (0 : Fin 1) (0 : Fin 1)) + partLoss m c t := by
  rw [outsAt0_B m c t h0]; dsimp only
  refine (congrFun (lossAcc_later (F := Ideal) c (grid0.coords t) (ms0_0 t) (hs0_0 t) (ms0_1 t) (hs0_1 t) (ms0_2 t) (hs0_2 t)
    (ms0_3 t) (hs0_3 t) (ms0_4 t) (hs0_4 t) (ms0_5 t) (hs0_5 t) (fun h => h0 ((hcond0_0 t).mp h)) (blk0 m c t) (blk1 m c t) (blk2 m c t)
    (blk3 m c t) (outsAt0 m c (t.val - 1) (Nat.lt_of_le_of_lt (Nat.sub_le _ _) t.isLt)).1
    (outsAt0 m c (t.val - 1) (Nat.lt_of_le_of_lt (Nat.sub_le _ _) t.isLt)).2) (ix2 (0 : Fin 1) (0 : Fin 1))).trans ?_
  refine (pay1_apply (k0_pay5 (F := Ideal) (blk3 m c t)) (k0_pay6 (F := Ideal) (blk0 m c t) (blk1 m c t) (blk2 m c t))
    (outsAt0 m c (t.val - 1) (Nat.lt_of_le_of_lt (Nat.sub_le _ _) t.isLt)).1).trans ?_
  rw [pay5_eq]
  rfl

theorem later_cnt (c : Dev nD) (t : Fin cfg0.N) (h0 : ¬t.val % 250 = 0) :
    (outsAt0 m c t.val t.isLt).2 (ix2 (0 : Fin 1) (0 : Fin 1))
      = (outsAt0 m c (t.val - 1) (Nat.lt_of_le_of_lt (Nat.sub_le _ _) t.isLt)).2 (ix2 (0 : Fin 1) (0 : Fin 1)) + partCnt m c t := by
  rw [outsAt0_B m c t h0]; dsimp only
  refine (congrFun (cntAcc_later (F := Ideal) c (grid0.coords t) (ms0_0 t) (hs0_0 t) (ms0_1 t) (hs0_1 t) (ms0_2 t) (hs0_2 t)
    (ms0_3 t) (hs0_3 t) (ms0_4 t) (hs0_4 t) (ms0_5 t) (hs0_5 t) (fun h => h0 ((hcond0_0 t).mp h)) (blk0 m c t) (blk1 m c t) (blk2 m c t)
    (blk3 m c t) (outsAt0 m c (t.val - 1) (Nat.lt_of_le_of_lt (Nat.sub_le _ _) t.isLt)).1
    (outsAt0 m c (t.val - 1) (Nat.lt_of_le_of_lt (Nat.sub_le _ _) t.isLt)).2) (ix2 (0 : Fin 1) (0 : Fin 1))).trans ?_
  refine (pay2_apply (k0_pay5 (F := Ideal) (blk3 m c t))
    (outsAt0 m c (t.val - 1) (Nat.lt_of_le_of_lt (Nat.sub_le _ _) t.isLt)).2).trans ?_
  rw [pay5_eq]
  rfl

/-! ## The running sums -/

/-- A grid point's contribution by its number (zero past the grid). -/
def partLossN (c : Dev nD) (n : ℕ) : EReal := if h : n < cfg0.N then partLoss m c ⟨n, h⟩ else 0
def partCntN (c : Dev nD) (n : ℕ) : EReal := if h : n < cfg0.N then partCnt m c ⟨n, h⟩ else 0

/-- After point n the loss accumulator holds the contributions of the points 0 … n. -/
theorem lossAcc_eq (c : Dev nD) : ∀ (n : ℕ) (hn : n < cfg0.N),
    (outsAt0 m c n hn).1 (ix2 (0 : Fin 1) (0 : Fin 1)) = ∑ t ∈ Finset.range (n + 1), partLossN m c t
  | 0, hn => by
    rw [Finset.sum_range_one]
    refine (first_loss m c ⟨0, hn⟩ rfl).trans ?_
    rw [zero_add]; unfold partLossN; rw [dif_pos hn]
  | n + 1, hn => by
    have hN : cfg0.N = 250 := N_0
    have hB : ¬(⟨n + 1, hn⟩ : Fin cfg0.N).val % 250 = 0 := by dsimp only; omega
    rw [Finset.sum_range_succ _ (n + 1), ← lossAcc_eq c n (Nat.lt_of_succ_lt hn)]
    refine (later_loss m c ⟨n + 1, hn⟩ hB).trans ?_
    unfold partLossN; rw [dif_pos hn]
    rfl

/-- After point n the count accumulator holds the contributions of the points 0 … n. -/
theorem cntAcc_eq (c : Dev nD) : ∀ (n : ℕ) (hn : n < cfg0.N),
    (outsAt0 m c n hn).2 (ix2 (0 : Fin 1) (0 : Fin 1)) = ∑ t ∈ Finset.range (n + 1), partCntN m c t
  | 0, hn => by
    rw [Finset.sum_range_one]
    refine (first_cnt m c ⟨0, hn⟩ rfl).trans ?_
    rw [zero_add]; unfold partCntN; rw [dif_pos hn]
  | n + 1, hn => by
    have hN : cfg0.N = 250 := N_0
    have hB : ¬(⟨n + 1, hn⟩ : Fin cfg0.N).val % 250 = 0 := by dsimp only; omega
    rw [Finset.sum_range_succ _ (n + 1), ← cntAcc_eq c n (Nat.lt_of_succ_lt hn)]
    refine (later_cnt m c ⟨n + 1, hn⟩ hB).trans ?_
    unfold partCntN; rw [dif_pos hn]
    rfl

/-! ## From blocks to all points -/

/-- The validity weight of point n. -/
abbrev validAt (c : Dev nD) (n : Fin 100000) : EReal := arrValid m c (ix2 n (0 : Fin 1))

theorem blocks : 250 * 400 = 100000 := by decide

/-- Block t's loss contribution is the sum over its 400 rows of the row's loss times its validity weight. -/
theorem partLossN_eq (c : Dev nD) (t : Fin 250) :
    partLossN m c t.val = ∑ r : Fin 400,
      lossAt (arrFeat m c) (arrNbr m c) (arrMatch m c) (Cert.BlockSum.pos blocks t r) * validAt m c (Cert.BlockSum.pos blocks t r) := by
  have hN : cfg0.N = 250 := N_0
  have ht : t.val < cfg0.N := by rw [hN]; exact t.isLt
  unfold partLossN; rw [dif_pos ht]; unfold partLoss
  refine Finset.sum_congr rfl fun r _ => ?_
  rw [pay6_apply, blk3_apply m c ⟨t.val, ht⟩ r 0 (Cert.BlockSum.pos blocks t r) rfl]
  unfold lossAt
  simp only [blk0_apply m c ⟨t.val, ht⟩ r _ (Cert.BlockSum.pos blocks t r) rfl,
    blk1_apply m c ⟨t.val, ht⟩ r _ _ (Cert.BlockSum.pos blocks t r) rfl,
    blk2_apply m c ⟨t.val, ht⟩ r _ (Cert.BlockSum.pos blocks t r) rfl]

theorem partCntN_eq (c : Dev nD) (t : Fin 250) :
    partCntN m c t.val = ∑ r : Fin 400, validAt m c (Cert.BlockSum.pos blocks t r) := by
  have hN : cfg0.N = 250 := N_0
  have ht : t.val < cfg0.N := by rw [hN]; exact t.isLt
  unfold partCntN; rw [dif_pos ht]; unfold partCnt
  refine Finset.sum_congr rfl fun r _ => ?_
  rw [blk3_apply m c ⟨t.val, ht⟩ r 0 (Cert.BlockSum.pos blocks t r) rfl]

/-- The last grid point. -/
theorem last_lt : 249 < cfg0.N := by rw [show cfg0.N = 250 from N_0]; decide

/-- After the last point (number 249) the loss accumulator holds the specification's weighted sum of losses … -/
theorem lossAcc_last (c : Dev nD) (t : Fin cfg0.N) (ht : t.val = 249) :
    (outsAt0 m c t.val t.isLt).1 (ix2 (0 : Fin 1) (0 : Fin 1))
      = sumLoss (arrFeat m c) (arrNbr m c) (arrMatch m c) (validAt m c) := by
  rw [lossAcc_eq m c t.val t.isLt, ht, Cert.BlockSum.sum_range_eq_sum_fin 250 (partLossN m c)]
  unfold sumLoss
  rw [← Cert.BlockSum.sum_blocks blocks (fun n => lossAt (arrFeat m c) (arrNbr m c) (arrMatch m c) n * validAt m c n)]
  exact Finset.sum_congr rfl fun t _ => partLossN_eq m c t

/-- … and the count accumulator the sum of the validity weights. -/
theorem cntAcc_last (c : Dev nD) (t : Fin cfg0.N) (ht : t.val = 249) :
    (outsAt0 m c t.val t.isLt).2 (ix2 (0 : Fin 1) (0 : Fin 1)) = sumCnt (validAt m c) := by
  rw [cntAcc_eq m c t.val t.isLt, ht, Cert.BlockSum.sum_range_eq_sum_fin 250 (partCntN m c)]
  unfold sumCnt
  rw [← Cert.BlockSum.sum_blocks blocks (fun n => validAt m c n)]
  exact Finset.sum_congr rfl fun t _ => partCntN_eq m c t

end Cert.KernelIdeal.Accum

end
-- ==== Proof.Final.lean ====
/- The kernel program's run, read: its result is the specification's batch loss of the arrays the region streams.

   Both accumulator blocks are written back once, after the last grid point, and each block is its whole [1, 1] array,
   so the two result arrays of the region end at the accumulators' last contents: the weighted sum of the points' losses
   and the sum of the validity weights. The host lines after the region divide the first by the larger of the second and 1
   and multiply by 1. -/
import proofs.«124775_j33517924778311_1_alg».proof.Proof.Accum
import Idealize.ShloMosaic.Lib.Pipeline.Value
import Idealize.ShloMosaic.Lib.StableHlo.Run

noncomputable section

open scoped BigOperators
open Idealize.ShloMosaic Idealize.ShloMosaic.TcCoe Idealize.SL.Sem Idealize.ShloMosaic.ValueIdx Idealize.ShloMosaic.StableHlo
open Idealize.ShloMosaic.Pipeline (Dat)

namespace Cert.KernelIdeal.Final

open Cert.KernelIdeal Cert.KernelIdeal.Gen Cert.Contrast Cert.KernelIdeal.Accum

variable (m : (ℓ : Loc nD τ sig) → Buf (Elt Ideal) ℓ) (ρ : Dev nD → PrngReg)

/-- The last grid point, the only one after which the accumulators are written back. -/
abbrev tLast : Fin cfg0.N := ⟨249, last_lt⟩

/-- The loss accumulator's and the count accumulator's contents after grid point t. -/
def lossArrAt (c : Dev nD) (t : Fin cfg0.N) : Buf (Elt Ideal) ((c : Thread nD τ).loc main_v27_0) := (outsAt0 m c t.val t.isLt).1
def cntArrAt (c : Dev nD) (t : Fin cfg0.N) : Buf (Elt Ideal) ((c : Thread nD τ).loc main_v27_1) := (outsAt0 m c t.val t.isLt).2

theorem after4_at (c : Dev nD) (t : Fin cfg0.N) : (dats m 0 c).after 4 t = lossArrAt m c t := by
  unfold lossArrAt; exact after0_4 m c t
theorem after5_at (c : Dev nD) (t : Fin cfg0.N) : (dats m 0 c).after 5 t = cntArrAt m c t := by
  unfold cntArrAt; exact after0_5 m c t

theorem lossArrAt_apply (c : Dev nD) (t : Fin cfg0.N) (ht : t.val = 249) :
    lossArrAt m c t (ix2 (0 : Fin 1) (0 : Fin 1)) = sumLoss (arrFeat m c) (arrNbr m c) (arrMatch m c) (validAt m c) := by
  unfold lossArrAt; exact lossAcc_last m c t ht
theorem cntArrAt_apply (c : Dev nD) (t : Fin cfg0.N) (ht : t.val = 249) :
    cntArrAt m c t (ix2 (0 : Fin 1) (0 : Fin 1)) = sumCnt (validAt m c) := by
  unfold cntArrAt; exact cntAcc_last m c t ht

-- from here on only the two facts above are used of these contents
attribute [local irreducible] lossArrAt cntArrAt

/-- The accumulators' contents after the last point. -/
abbrev lossArr (c : Dev nD) : Buf (Elt Ideal) ((c : Thread nD τ).loc main_v27_0) := lossArrAt m c tLast
abbrev cntArr (c : Dev nD) : Buf (Elt Ideal) ((c : Thread nD τ).loc main_v27_1) := cntArrAt m c tLast

theorem after4_last (c : Dev nD) : (dats m 0 c).after 4 tLast = lossArr m c := after4_at m c tLast
theorem after5_last (c : Dev nD) : (dats m 0 c).after 5 tLast = cntArr m c := after5_at m c tLast

theorem lossArr_apply (c : Dev nD) :
    lossArr m c (ix2 (0 : Fin 1) (0 : Fin 1)) = sumLoss (arrFeat m c) (arrNbr m c) (arrMatch m c) (validAt m c) :=
  lossArrAt_apply m c tLast rfl
theorem cntArr_apply (c : Dev nD) : cntArr m c (ix2 (0 : Fin 1) (0 : Fin 1)) = sumCnt (validAt m c) :=
  cntArrAt_apply m c tLast rfl

/-- The accumulator blocks sit at offset zero of their arrays. -/
theorem off4 : (fun a => win0_4.index tLast a * main_v27_0.ty.shape.size a) = fun _ => 0 :=
  funext fun a => by fin_cases a <;> decide
theorem off5 : (fun a => win0_5.index tLast a * main_v27_1.ty.shape.size a) = fun _ => 0 :=
  funext fun a => by fin_cases a <;> decide

/-- The one write-back of the loss accumulator writes its last contents: the block is the whole array. -/
theorem flushed4 (c : Dev nD) (t : Fin cfg0.N) (hf : (cfg0.win 4).flush t = true) :
    (dats m 0 c).flushed 4 t = ((cfg0.win 4).blk t).view.read (Elt Ideal) (lossArr m c) := by
  have hN : cfg0.N = 250 := N_0
  have h : t.val = 249 := by have := (flush0_4 t).mp hf; have := t.isLt; omega
  obtain rfl : t = tLast := Fin.ext h
  show (cfg0.win 4).cut (grid0.coords tLast) ((dats m 0 c).after 4 tLast) = _
  rw [after4_last]
  exact (Memref.read_access_unit_zero (Elt Ideal) main_v27_0 off4 (fun a => by rw [congrFun off4 a]; simp) (lossArr m c)).symm

theorem flushed5 (c : Dev nD) (t : Fin cfg0.N) (hf : (cfg0.win 5).flush t = true) :
    (dats m 0 c).flushed 5 t = ((cfg0.win 5).blk t).view.read (Elt Ideal) (cntArr m c) := by
  have hN : cfg0.N = 250 := N_0
  have h : t.val = 249 := by have := (flush0_5 t).mp hf; have := t.isLt; omega
  obtain rfl : t = tLast := Fin.ext h
  show (cfg0.win 5).cut (grid0.coords tLast) ((dats m 0 c).after 5 tLast) = _
  rw [after5_last]
  exact (Memref.read_access_unit_zero (Elt Ideal) main_v27_1 off5 (fun a => by rw [congrFun off5 a]; simp) (cntArr m c)).symm

/-- So the region's first result array ends at the loss accumulator's last contents … -/
theorem final4 (c : Dev nD) : (dats m 0 c).arrAt 4 cfg0.N = lossArr m c :=
  (dats m 0 c).arrAt_eq_of_cover 4 (lossArr m c) (flushed4 m c) fun i =>
    ⟨tLast, (flush0_4 tLast).mpr rfl, by
      show i ∈ ((View.whole main_v27_0).slice (win0_4.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_4.index tLast 0 * win0_4.size 0 ≤ (i 0 : Nat)
          ∧ (i 0 : Nat) < win0_4.index tLast 0 * win0_4.size 0 + win0_4.xsize (grid0.coords tLast) 0
        rw [show win0_4.index tLast 0 * win0_4.size 0 = 0 from by decide +kernel,
          show win0_4.xsize (grid0.coords tLast) 0 = 1 from by decide +kernel]
        omega
      | ⟨1, _⟩ =>
        show win0_4.index tLast 1 * win0_4.size 1 ≤ (i 1 : Nat)
          ∧ (i 1 : Nat) < win0_4.index tLast 1 * win0_4.size 1 + win0_4.xsize (grid0.coords tLast) 1
        rw [show win0_4.index tLast 1 * win0_4.size 1 = 0 from by decide +kernel,
          show win0_4.xsize (grid0.coords tLast) 1 = 1 from by decide +kernel]
        omega⟩

/-- … and its second at the count accumulator's. -/
theorem final5 (c : Dev nD) : (dats m 0 c).arrAt 5 cfg0.N = cntArr m c :=
  (dats m 0 c).arrAt_eq_of_cover 5 (cntArr m c) (flushed5 m c) fun i =>
    ⟨tLast, (flush0_5 tLast).mpr rfl, by
      show i ∈ ((View.whole main_v27_1).slice (win0_5.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_5.index tLast 0 * win0_5.size 0 ≤ (i 0 : Nat)
          ∧ (i 0 : Nat) < win0_5.index tLast 0 * win0_5.size 0 + win0_5.xsize (grid0.coords tLast) 0
        rw [show win0_5.index tLast 0 * win0_5.size 0 = 0 from by decide +kernel,
          show win0_5.xsize (grid0.coords tLast) 0 = 1 from by decide +kernel]
        omega
      | ⟨1, _⟩ =>
        show win0_5.index tLast 1 * win0_5.size 1 ≤ (i 1 : Nat)
          ∧ (i 1 : Nat) < win0_5.index tLast 1 * win0_5.size 1 + win0_5.xsize (grid0.coords tLast) 1
        rw [show win0_5.index tLast 1 * win0_5.size 1 = 0 from by decide +kernel,
          show win0_5.xsize (grid0.coords tLast) 1 = 1 from by decide +kernel]
        omega⟩

/-- A [1, 1] array viewed as a scalar reads its one element. -/
theorem scalar_of_1x1 (x : FVec Ideal S1x1 .f32) (i : S_.Idx) :
    shapeCast S_ x shapeCasts_S1x1_S_ i = x (ix2 (0 : Fin 1) (0 : Fin 1)) :=
  shapeCast_apply x shapeCasts_S1x1_S_ i (ix2 (0 : Fin 1) (0 : Fin 1)) (by
    have h1 : (S_.rowMajor i).val < 1 := (S_.rowMajor i).isLt
    rw [Shape.rowMajor_val_two]
    show 0 * 1 + 0 = (S_.rowMajor i).val
    omega)

/-- The program's result: the specification's batch loss of the arrays the region streams. -/
def result (c : Dev nD) : Buf (Elt Ideal) ((c : Thread nD τ).loc main_v32) :=
  fun _ => meanLoss (arrFeat m c) (arrNbr m c) (arrMatch m c) (validAt m c)

/-- What the host lines after the region leave in the result buffer. -/
theorem tail_eq (c : Dev nD) :
    Pipeline.afterTail₀ cfgs (dats m) 0 (V0 m) [hostOps1] c main_v32 = result m c := by
  have e4 : Pipeline.withArrays (cfgs 0).spec c (V0 m c) (fun w => (dats m 0 c).arrAt w (cfgs 0).N) (Proc.devRef .tc main_v27_0)
      = lossArr m c := (Pipeline.withArrays_arr spec0 launch0.win.arr_inj c _ _ 4).trans (final4 m c)
  have e5 : Pipeline.withArrays (cfgs 0).spec c (V0 m c) (fun w => (dats m 0 c).arrAt w (cfgs 0).N) (Proc.devRef .tc main_v27_1)
      = cntArr m c := (Pipeline.withArrays_arr spec0 launch0.win.arr_inj c _ _ 5).trans (final5 m c)
  unfold Pipeline.afterTail₀
  simp only [List.flatten_cons, List.flatten_nil, List.append_nil]
  after_results
  rw [e4, e5]
  funext i
  show Ideal.div (shapeCast S_ (lossArr m c) shapeCasts_S1x1_S_ i)
      (max (shapeCast S_ (cntArr m c) shapeCasts_S1x1_S_ i) oneW) * oneW = _
  rw [scalar_of_1x1, scalar_of_1x1, lossArr_apply, cntArr_apply]
  rfl

/-- Every weakly fair execution of the kernel program ends with the result buffer at the specification's batch loss
    and the three arguments unchanged. -/
theorem run : θ_run defs (onTc (τ := τ) (main (F := Ideal))) ⟨m, fun _ => 0, ρ⟩ (fun r => ∀ c : Dev nD,
      r.2.mem ((c.tc : Thread nD τ).loc main_v32) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v32 (Pipeline.mem_restRefs_of main_v32 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Final

end
-- ==== Proof.Prelude.lean ====
/- The arrays the kernel's host prelude builds are the reference's own intermediate arrays.

   Before the kernel region the program gathers each point's neighbour features, compares labels to get the 0/1
   label-match weights, counts the matches per point and turns "some but not all neighbours match" into the 0/1
   validity weight. The reference does the same host operations on the same arguments, so the three arrays the
   region streams are, term for term, stages of the reference: the gathered features, the match weights, and the
   validity weights laid out as a column. -/
import proofs.«124775_j33517924778311_1_alg».proof.Proof.Gen.KernelIdeal.Frame
import proofs.«124775_j33517924778311_1_alg».proof.Proof.Gen.ReferenceIdeal.Read
import Idealize.ShloMosaic.Lib.StableHlo.Run
import Idealize.ShloMosaic.Lib.ValueIdx

noncomputable section

open Idealize.ShloMosaic Idealize.ShloMosaic.TcCoe Idealize.SL.Sem Idealize.ShloMosaic.StableHlo Idealize.ShloMosaic.ValueIdx

namespace Cert.KernelIdeal.Prelude

open Cert.KernelIdeal Cert.KernelIdeal.Gen

variable {F : FTy → Type} [FloatOps F]
variable (m : (ℓ : Loc nD τ sig) → Buf (Elt F) ℓ)

/-- The gathered neighbour features the region streams are the reference's gathered features. -/
theorem nbr_eq (c : Dev nD) :
    (V m c main_v13 : FVec F S100000x35x64 .f32)
      = Cert.ReferenceIdeal.Read.val_main_v13 (F := F) (m ((c.tc : Thread nD τ).loc main_arg0)) (m ((c.tc : Thread nD τ).loc main_arg2)) := by
  show StableHlo.after hostOps0 (fun b => m (c, b)) (Proc.devRef .tc main_v13) = _
  after_results
  rfl

/-- The label-match weights the region streams are the reference's. -/
theorem match_eq (c : Dev nD) :
    (V m c main_v24 : FVec F S100000x35 .f32)
      = Cert.ReferenceIdeal.Read.val_main_v40 (F := F) (m ((c.tc : Thread nD τ).loc main_arg1)) (m ((c.tc : Thread nD τ).loc main_arg2)) := by
  show StableHlo.after hostOps0 (fun b => m (c, b)) (Proc.devRef .tc main_v24) = _
  after_results
  rfl

set_option maxHeartbeats 2000000 in
/-- The validity weights the region streams are the reference's, laid out as a column. -/
theorem valid_eq (c : Dev nD) :
    (V m c main_v26 : FVec F S100000x1 .f32)
      = broadcastInDim S100000x1 ![0] bcast_S100000_S100000x1_0
          (Cert.ReferenceIdeal.Read.val_main_v49 (F := F) (m ((c.tc : Thread nD τ).loc main_arg1)) (m ((c.tc : Thread nD τ).loc main_arg2))) := by
  show StableHlo.after hostOps0 (fun b => m (c, b)) (Proc.devRef .tc main_v26) = _
  after_results_simp <;> rfl

/-- Point n's validity weight, read off the column. -/
theorem valid_apply (c : Dev nD) (n : Fin 100000) :
    (V m c main_v26 : FVec F S100000x1 .f32) (ix2 n (0 : Fin 1))
      = Cert.ReferenceIdeal.Read.val_main_v49 (F := F) (m ((c.tc : Thread nD τ).loc main_arg1)) (m ((c.tc : Thread nD τ).loc main_arg2)) (ix1 n) := by
  rw [valid_eq]
  exact broadcastInDim_apply _ bcast_S100000_S100000x1_0 _ (ix2 n (0 : Fin 1)) (ix1 n) (fun a => match a with
    | ⟨0, _⟩ => by show n.val = if (100000 : Nat) = 1 then 0 else n.val; rw [if_neg (by decide)])

end Cert.KernelIdeal.Prelude

end
-- ==== Proof.RefLoss.lean ====
/- The reference program's result is the batch loss of the specification.

   Read top down at the exact values: the squared distance at (n, k) is the sum over the 64 channels of the squared
   differences; its negated ε-smoothed root is the negated distance; the row maximum is the fold of max over the 35
   neighbours; the soft-max weight is the exponential of the shifted distance over the temperature; a point's loss is
   minus the logarithm of the matching share plus ε; the result is the weighted mean of the points' losses. -/
import proofs.«124775_j33517924778311_1_alg».proof.Proof.Gen.ReferenceIdeal.Read
import proofs.«124775_j33517924778311_1_alg».proof.Proof.LossSpec
import proofs.«124775_j33517924778311_1_alg».proof.Proof.LibKeepdims

noncomputable section
open scoped BigOperators
namespace Cert.ReferenceIdeal.RefLoss
open Cert.ReferenceIdeal Cert.ReferenceIdeal.Gen Cert.ReferenceIdeal.Read Idealize.ShloMosaic Idealize.ShloMosaic.ValueIdx Cert.Contrast

/-- The squared difference at (n, k, c): the point's feature minus the neighbour's, squared. -/
theorem sq_at (x0 : (⟨S100000x64, .f32⟩ : BufTy).Contents (Elt Ideal)) (x2 : (⟨S100000x35, .i32⟩ : BufTy).Contents (Elt Ideal))
    (n : Fin 100000) (k : Fin 35) (c : Fin 64) :
    val_main_v27 (F := Ideal) x0 x2 (ix3 n k c)
      = (x0 (ix2 n c) - val_main_v13 (F := Ideal) x0 x2 (ix3 n k c)) * (x0 (ix2 n c) - val_main_v13 (F := Ideal) x0 x2 (ix3 n k c)) := by
  have hidx : idx_main_v24 (idx_main_v25 (ix3 n k c)) = ix2 n c := by
    funext a; match a with | ⟨0, _⟩ => rfl | ⟨1, _⟩ => rfl
  rw [val_main_v27_apply, val_main_v26_apply, val_main_v25_apply, val_main_v24_apply, hidx]
  rfl

/-- The negated distance at (n, k). -/
theorem negd_at (x0 : (⟨S100000x64, .f32⟩ : BufTy).Contents (Elt Ideal)) (x2 : (⟨S100000x35, .i32⟩ : BufTy).Contents (Elt Ideal))
    (n : Fin 100000) (k : Fin 35) :
    val_main_v32 (F := Ideal) x0 x2 (ix2 n k)
      = negDist (fun c => x0 (ix2 n c)) (fun c => val_main_v13 (F := Ideal) x0 x2 (ix3 n k c)) := by
  have hidx : ∀ c : Fin 64, idx_main_v28 (ix2 n k) c = ix3 n k c := by
    intro c; funext a; match a with | ⟨0, _⟩ => rfl | ⟨1, _⟩ => rfl | ⟨2, _⟩ => rfl
  rw [val_main_v32_apply, val_main_v31_apply, val_main_v30_apply, val_main_v29_apply, val_main_cst_6_apply,
    val_main_v28_apply, val_main_cst_apply]
  simp only [hidx, sq_at]
  unfold negDist
  simp only [Ideal.hostNegf_def, Ideal.negf_def, Ideal.hostUnary_sqrt_def, Ideal.addf_def, Ideal.ofBits_def,
    Ideal.ofBits_zero_f32, zero_add]

/-- The row maximum at n: the fold of max over the 35 negated distances. -/
theorem rowmax_at (x0 : (⟨S100000x64, .f32⟩ : BufTy).Contents (Elt Ideal)) (x2 : (⟨S100000x35, .i32⟩ : BufTy).Contents (Elt Ideal))
    (n : Fin 100000) :
    val_main_v33 (F := Ideal) x0 x2 (ix1 n)
      = rowMax (fun c => x0 (ix2 n c)) (fun k c => val_main_v13 (F := Ideal) x0 x2 (ix3 n k c)) := by
  unfold val_main_v33
  refine (Cert.Keepdims.host_max_last2_apply (φ := .f32) (val_main_v32 (F := Ideal) x0 x2) (val_main_cst_7 (F := Ideal))
    reducesTo_S100000x35_S100000_d1 (by decide) h_S_ n).trans ?_
  unfold rowMax
  simp only [negd_at, val_main_cst_7_apply, Ideal.ofBits_def]

/-- The soft-max weight at (n, k). -/
theorem softw_at (x0 : (⟨S100000x64, .f32⟩ : BufTy).Contents (Elt Ideal)) (x2 : (⟨S100000x35, .i32⟩ : BufTy).Contents (Elt Ideal))
    (n : Fin 100000) (k : Fin 35) :
    val_main_v39 (F := Ideal) x0 x2 (ix2 n k)
      = softW (fun c => x0 (ix2 n c)) (fun k c => val_main_v13 (F := Ideal) x0 x2 (ix3 n k c)) k := by
  have hidx : idx_main_v34 (idx_main_v35 (ix2 n k)) = ix1 n := by
    funext a; match a with | ⟨0, _⟩ => rfl
  rw [val_main_v39_apply, val_main_v38_apply, val_main_v37_apply, val_main_cst_8_apply, val_main_v36_apply,
    val_main_v35_apply, val_main_v34_apply, hidx, rowmax_at, negd_at]
  rfl

/-- The point's loss at n. -/
theorem loss_at (x0 : (⟨S100000x64, .f32⟩ : BufTy).Contents (Elt Ideal)) (x1 : (⟨S100000, .i32⟩ : BufTy).Contents (Elt Ideal))
    (x2 : (⟨S100000x35, .i32⟩ : BufTy).Contents (Elt Ideal)) (n : Fin 100000) :
    val_main_v48 (F := Ideal) x0 x1 x2 (ix1 n)
      = lossAt x0 (val_main_v13 (F := Ideal) x0 x2) (val_main_v40 (F := Ideal) x1 x2) n := by
  have hidx : ∀ k : Fin 35, idx_main_v42 (ix1 n) k = ix2 n k := by
    intro k; funext a; match a with | ⟨0, _⟩ => rfl | ⟨1, _⟩ => rfl
  have hidx' : ∀ k : Fin 35, idx_main_v43 (ix1 n) k = ix2 n k := by
    intro k; funext a; match a with | ⟨0, _⟩ => rfl | ⟨1, _⟩ => rfl
  rw [val_main_v48_apply, val_main_v47_apply, val_main_v46_apply, val_main_v45_apply, val_main_cst_11_apply,
    val_main_v44_apply, val_main_v42_apply, val_main_v43_apply, val_main_cst_9_apply, val_main_cst_10_apply]
  simp only [hidx, hidx', val_main_v41_apply, softw_at]
  unfold lossAt rowLoss
  simp only [Ideal.hostNegf_def, Ideal.negf_def, Ideal.hostUnary_log_def, Ideal.addf_def, Ideal.mulf_def, Ideal.hostDivf_def,
    Ideal.ofBits_def, Ideal.ofBits_zero_f32, zero_add]

/-- A sum over a rank-1 index set is the sum over its coordinate. -/
theorem sum_idx1 {M : Type*} [AddCommMonoid M] {m : Nat} (f : (⟨1, ![m]⟩ : Shape).Idx → M) :
    ∑ j, f j = ∑ a : Fin m, f (ix1 a) :=
  Fintype.sum_equiv ⟨fun j => j 0, fun a => ix1 a, fun j => (eq_ix1 j).symm, fun _ => rfl⟩ f (fun a => f (ix1 a))
    (fun j => congrArg f (eq_ix1 j))

/-- The reference's result is the batch loss of its own gathered neighbour features, label-match weights and validity weights. -/
theorem result_eq (x0 : (⟨S100000x64, .f32⟩ : BufTy).Contents (Elt Ideal)) (x1 : (⟨S100000, .i32⟩ : BufTy).Contents (Elt Ideal))
    (x2 : (⟨S100000x35, .i32⟩ : BufTy).Contents (Elt Ideal)) (i : S_.Idx) :
    val_main_v55 (F := Ideal) x0 x1 x2 i
      = meanLoss x0 (val_main_v13 (F := Ideal) x0 x2) (val_main_v40 (F := Ideal) x1 x2)
          (fun n : Fin 100000 => val_main_v49 (F := Ideal) x1 x2 (ix1 n)) := by
  rw [val_main_v55_apply, val_main_cst_15_apply, val_main_v54_apply, val_main_v53_apply, val_main_cst_14_apply,
    val_main_v51_apply, val_main_cst_13_apply, val_main_v50_apply, val_main_cst_12_apply,
    sum_idx1 (val_main_v52 (F := Ideal) x0 x1 x2), sum_idx1 (val_main_v49 (F := Ideal) x1 x2)]
  simp only [val_main_v52_apply, loss_at]
  unfold meanLoss sumLoss sumCnt
  simp only [Ideal.mulf_def, Ideal.hostDivf_def, Ideal.maximumf_def, Ideal.ofBits_def, Ideal.ofBits_zero_f32, zero_add]

end Cert.ReferenceIdeal.RefLoss

end
-- ==== Proof.Bridge.lean ====
/- The kernel program's result and the reference's result are one function of the three arguments.

   The kernel program's result is the specification's batch loss of the arrays its region streams: the feature
   argument itself, and three arrays its host prelude builds. Those three are the reference's own gathered features,
   label-match weights and validity weights, and the reference's result is the same batch loss of them. -/
import proofs.«124775_j33517924778311_1_alg».proof.Proof.Final
import proofs.«124775_j33517924778311_1_alg».proof.Proof.Prelude
import proofs.«124775_j33517924778311_1_alg».proof.Proof.RefLoss

noncomputable section

open Idealize.ShloMosaic Idealize.ShloMosaic.TcCoe Idealize.SL.Sem Idealize.ShloMosaic.ValueIdx

namespace Cert.KernelIdeal.Bridge

open Cert.KernelIdeal Cert.KernelIdeal.Gen Cert.Contrast

variable (m : (ℓ : Loc nD τ sig) → Buf (Elt Ideal) ℓ)

/-- The kernel program's result is the reference's last stage of the same three arguments. -/
theorem result_eq_ref (c : Dev nD) :
    Cert.KernelIdeal.Final.result m c
      = Cert.ReferenceIdeal.Read.val_main_v55 (F := Ideal) (m ((c.tc : Thread nD τ).loc main_arg0))
          (m ((c.tc : Thread nD τ).loc main_arg1)) (m ((c.tc : Thread nD τ).loc main_arg2)) := by
  funext i
  rw [Cert.ReferenceIdeal.RefLoss.result_eq]
  show meanLoss (V m c main_arg0) (V m c main_v13) (V m c main_v24) (fun n => V m c main_v26 (ix2 n (0 : Fin 1))) = _
  rw [V_main_arg0 m c, Cert.KernelIdeal.Prelude.nbr_eq m c, Cert.KernelIdeal.Prelude.match_eq m c]
  exact congrArg (meanLoss _ _ _) (funext fun n => Cert.KernelIdeal.Prelude.valid_apply m c n)

end Cert.KernelIdeal.Bridge

end
-- ==== Proof.lean ====
/- The kernel streams the 100000 points in 250 blocks of 400 rows and keeps two running sums across the grid: the
   validity-weighted sum of the points' soft-nearest-neighbour losses and the sum of the validity weights; the host
   lines after it divide the first by the larger of the second and 1. The reference computes every point's loss at
   once and takes the same weighted mean. On the extended reals both are one function of the arguments:

   * row by row the kernel body's arithmetic and the reference's are the same expression (a sum over 64 channels, a
     root, a maximum and two sums over 35 neighbours, an exponential, a quotient, a logarithm), with "zero minus x"
     for the kernel's negations and "minus x" for the reference's, equal at every extended real;
   * the accumulators hold a running sum, which is a finite sum over the blocks, and a sum over 250 blocks of sums
     over 400 rows is the sum over the 100000 rows: addition on the extended reals is commutative and associative,
     so the regrouping needs no finiteness and the precondition is never opened;
   * the arrays the kernel's host prelude builds (gathered neighbour features, label-match weights, validity
     weights) are the reference's own intermediate arrays, term for term.

   The three frames are the generated frame certificates and the reference's generated run; the idealization rewrote
   nothing, so its conjunct is trivial. -/
import proofs.«124775_j33517924778311_1_alg».proof.Defs
import proofs.«124775_j33517924778311_1_alg».proof.Proof.Gen.Kernel
import proofs.«124775_j33517924778311_1_alg».proof.Proof.Gen.Kernel.Skeleton
import proofs.«124775_j33517924778311_1_alg».proof.Proof.Gen.Kernel.Launch
import proofs.«124775_j33517924778311_1_alg».proof.Proof.Gen.Kernel.Points
import proofs.«124775_j33517924778311_1_alg».proof.Proof.Gen.Kernel.Frame
import proofs.«124775_j33517924778311_1_alg».proof.Proof.Gen.KernelIdeal
import proofs.«124775_j33517924778311_1_alg».proof.Proof.Gen.KernelIdeal.Skeleton
import proofs.«124775_j33517924778311_1_alg».proof.Proof.Gen.KernelIdeal.Launch
import proofs.«124775_j33517924778311_1_alg».proof.Proof.Gen.KernelIdeal.Points
import proofs.«124775_j33517924778311_1_alg».proof.Proof.Gen.KernelIdeal.Frame
import proofs.«124775_j33517924778311_1_alg».proof.Proof.Gen.ReferenceIdeal
import proofs.«124775_j33517924778311_1_alg».proof.Proof.Gen.Pre_finite_inputs
import proofs.«124775_j33517924778311_1_alg».proof.Proof.Gen.ReferenceIdeal.Run
import proofs.«124775_j33517924778311_1_alg».proof.Proof.Gen.ReferenceIdeal.Read
import proofs.«124775_j33517924778311_1_alg».proof.Proof.Bridge
import Idealize.ShloMosaic.Adequacy
import Idealize.ShloMosaic.Init

noncomputable section

namespace Cert.Proof

open Idealize.ShloMosaic Idealize.SL.Sem

/-- The kernel program at the word level runs and keeps its arguments: its generated frame certificate. -/
theorem frame_kernel : Cert.frame_Kernel := fun m ρ _ => Cert.Kernel.Gen.frame m ρ

/-- The idealized kernel program likewise. -/
theorem frame_kernelIdeal : Cert.frame_KernelIdeal := fun m ρ _ => Cert.KernelIdeal.Gen.frame m ρ

/-- The reference runs and keeps its arguments: its generated run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree both programs end at the specification's batch loss of those arguments. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v55_eq, (hagree c).1, (hagree c).2.1, (hagree c).2.2]
  exact (Cert.KernelIdeal.Bridge.result_eq_ref m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
